-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S524288 : Shape := ⟨1, ![524288]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16384x256 .f32) (main_arg1 : IVec S524288 32) (main_arg2 : IVec S524288 32) (main_arg3 : FVec F S256x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S16384x256 : Shape := ⟨2, ![16384, 256]⟩
abbrev S524288 : Shape := ⟨1, ![524288]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S524288x256 : Shape := ⟨2, ![524288, 256]⟩
abbrev S1x128 : Shape := ⟨2, ![1, 128]⟩
abbrev S16384x128 : Shape := ⟨2, ![16384, 128]⟩
abbrev S2048x256 : Shape := ⟨2, ![2048, 256]⟩
abbrev S2048x128 : Shape := ⟨2, ![2048, 128]⟩
abbrev S524288x128 : Shape := ⟨2, ![524288, 128]⟩
abbrev S1x64 : Shape := ⟨2, ![1, 64]⟩
abbrev S16384x64 : Shape := ⟨2, ![16384, 64]⟩
abbrev S2048x64 : Shape := ⟨2, ![2048, 64]⟩
abbrev S16384x16384 : Shape := ⟨2, ![16384, 16384]⟩
abbrev S1024x64 : Shape := ⟨2, ![1024, 64]⟩
abbrev S1024x1024 : Shape := ⟨2, ![1024, 1024]⟩
abbrev S64x1024 : Shape := ⟨2, ![64, 1024]⟩

abbrev nBuf : Space → Nat
  | .hbm => 91
  | .vmem => 24
  | .smem => 0
  | _ => 0

abbrev bufTy : (tb : Table) → Fin (tcTables nBuf tb) → BufTy
  | .hbm, ⟨0, _⟩ => ⟨S16384x256, .f32⟩
  | .hbm, ⟨1, _⟩ => ⟨S524288, .i32⟩
  | .hbm, ⟨2, _⟩ => ⟨S524288, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S524288, .f32⟩
  | .hbm, ⟨11, _⟩ => ⟨S_, .f32⟩
  | .hbm, ⟨12, _⟩ => ⟨S16384, .f32⟩
  | .hbm, ⟨13, _⟩ => ⟨S524288x1, .i32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S524288x1, .i32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x256, .f32⟩
  | .hbm, ⟨29, _⟩ => ⟨S16384x256, .f32⟩
  | .hbm, ⟨30, _⟩ => ⟨S_, .i32⟩
  | .hbm, ⟨31, _⟩ => ⟨S524288, .i32⟩
  | .hbm, ⟨32, _⟩ => ⟨S524288, .i1⟩
  | .hbm, ⟨33, _⟩ => ⟨S_, .i32⟩
  | .hbm, ⟨34, _⟩ => ⟨S524288, .i32⟩
  | .hbm, ⟨35, _⟩ => ⟨S524288, .i32⟩
  | .hbm, ⟨36, _⟩ => ⟨S524288, .i32⟩
  | .hbm, ⟨37, _⟩ => ⟨S524288x1, .i32⟩
  | .hbm, ⟨38, _⟩ => ⟨S524288x256, .f32⟩
  | .hbm, ⟨39, _⟩ => ⟨S_, .f32⟩
  | .hbm, ⟨40, _⟩ => ⟨S16384x256, .f32⟩
  | .hbm, ⟨41, _⟩ => ⟨S524288x1, .i32⟩
  | .hbm, ⟨42, _⟩ => ⟨S16384x256, .f32⟩
  | .hbm, ⟨43, _⟩ => ⟨S16384x1, .f32⟩
  | .hbm, ⟨44, _⟩ => ⟨S16384x256, .f32⟩
  | .hbm, ⟨45, _⟩ => ⟨S16384x256, .f32⟩
  | .hbm, ⟨46, _⟩ => ⟨S1x128, .f32⟩
  | .hbm, ⟨47, _⟩ => ⟨S16384x128, .f32⟩
  | .hbm, ⟨48, _⟩ => ⟨S16384x1, .f32⟩
  | .hbm, ⟨49, _⟩ => ⟨S16384x128, .f32⟩
  | .hbm, ⟨50, _⟩ => ⟨S16384x128, .f32⟩
  | .hbm, ⟨51, _⟩ => ⟨S_, .i32⟩
  | .hbm, ⟨52, _⟩ => ⟨S524288, .i32⟩
  | .hbm, ⟨53, _⟩ => ⟨S524288, .i1⟩
  | .hbm, ⟨54, _⟩ => ⟨S_, .i32⟩
  | .hbm, ⟨55, _⟩ => ⟨S524288, .i32⟩
  | .hbm, ⟨56, _⟩ => ⟨S524288, .i32⟩
  | .hbm, ⟨57, _⟩ => ⟨S524288, .i32⟩
  | .hbm, ⟨58, _⟩ => ⟨S524288x1, .i32⟩
  | .hbm, ⟨59, _⟩ => ⟨S524288x128, .f32⟩
  | .hbm, ⟨60, _⟩ => ⟨S_, .f32⟩
  | .hbm, ⟨61, _⟩ => ⟨S16384x128, .f32⟩
  | .hbm, ⟨62, _⟩ => ⟨S524288x1, .i32⟩
  | .hbm, ⟨63, _⟩ => ⟨S16384x128, .f32⟩
  | .hbm, ⟨64, _⟩ => ⟨S16384x1, .f32⟩
  | .hbm, ⟨65, _⟩ => ⟨S16384x128, .f32⟩
  | .hbm, ⟨66, _⟩ => ⟨S16384x128, .f32⟩
  | .hbm, ⟨67, _⟩ => ⟨S1x128, .f32⟩
  | .hbm, ⟨68, _⟩ => ⟨S16384x128, .f32⟩
  | .hbm, ⟨69, _⟩ => ⟨S16384x1, .f32⟩
  | .hbm, ⟨70, _⟩ => ⟨S16384x128, .f32⟩
  | .hbm, ⟨71, _⟩ => ⟨S16384x128, .f32⟩
  | .hbm, ⟨72, _⟩ => ⟨S_, .i32⟩
  | .hbm, ⟨73, _⟩ => ⟨S524288, .i32⟩
  | .hbm, ⟨74, _⟩ => ⟨S524288, .i1⟩
  | .hbm, ⟨75, _⟩ => ⟨S_, .i32⟩
  | .hbm, ⟨76, _⟩ => ⟨S524288, .i32⟩
  | .hbm, ⟨77, _⟩ => ⟨S524288, .i32⟩
  | .hbm, ⟨78, _⟩ => ⟨S524288, .i32⟩
  | .hbm, ⟨79, _⟩ => ⟨S524288x1, .i32⟩
  | .hbm, ⟨80, _⟩ => ⟨S524288x128, .f32⟩
  | .hbm, ⟨81, _⟩ => ⟨S_, .f32⟩
  | .hbm, ⟨82, _⟩ => ⟨S16384x128, .f32⟩
  | .hbm, ⟨83, _⟩ => ⟨S524288x1, .i32⟩
  | .hbm, ⟨84, _⟩ => ⟨S16384x128, .f32⟩
  | .hbm, ⟨85, _⟩ => ⟨S16384x1, .f32⟩
  | .hbm, ⟨86, _⟩ => ⟨S16384x128, .f32⟩
  | .hbm, ⟨87, _⟩ => ⟨S16384x128, .f32⟩
  | .hbm, ⟨88, _⟩ => ⟨S1x64, .f32⟩
  | .hbm, ⟨89, _⟩ => ⟨S16384x64, .f32⟩
  | .hbm, ⟨90, _⟩ => ⟨S16384x16384, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S128x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S128x64, .f32⟩
  | .local _ .vmem, ⟨15, _⟩ => ⟨S1x64, .f32⟩
  | .local _ .vmem, ⟨16, _⟩ => ⟨S2048x64, .f32⟩
  | .local _ .vmem, ⟨17, _⟩ => ⟨S2048x64, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S1024x1024, .f32⟩
  | .local _ .vmem, ⟨23, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  bcast_S16384x1_S16384x128_0_1 : S16384x1.BroadcastsInDim S16384x128 (![0, 1] : Fin 2 → Fin S16384x128.rank)
  bcast_S_S16384x128 : S_.BroadcastsInDim S16384x128 (![] : Fin 0 → Fin S16384x128.rank)
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S1024x1024_S1024x1024_0_0 : ∀ a, (![0, 0] : Fin 2 → Nat) a + S1024x1024.size a ≤ S1024x1024.size a
  h_S1024x1024 : 0 < S1024x1024.numel
  scatter_S16384_S524288x1_S524288_n_0_0_1_wf : ScatterDims.WF S16384 S524288x1 S524288 [] [0] [0] 1
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x256_S256x128_S2048x128_1_0_0_1_n_n_wf : DotDims.WF S2048x256 S256x128 S2048x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x128_S128x128_S2048x128_1_0_0_1_n_n_wf : DotDims.WF S2048x128 S128x128 S2048x128 [1] [0] [0] [1] [] []
  dot_S2048x128_S128x64_S2048x64_1_0_0_1_n_n_wf : DotDims.WF S2048x128 S128x64 S2048x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S16384x128.size a
  hwx1_3 : ∀ i : grid1.Coords, EltTy.bits .f32 = 32 ∨ (Rect.block (s := S16384x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S16384x64.size a
  hwx2_3 : ∀ i : grid2.Coords, EltTy.bits .f32 = 32 ∨ (Rect.block (s := S16384x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S16384x64.size a
  hwx3_0 : ∀ i : grid3.Coords, EltTy.bits .f32 = 32 ∨ (Rect.block (s := S16384x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S16384x64.size a
  hwx3_1 : ∀ i : grid3.Coords, EltTy.bits .f32 = 32 ∨ (Rect.block (s := S16384x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S16384x16384.size a
  hwx3_2 : ∀ i : grid3.Coords, EltTy.bits .f32 = 32 ∨ (Rect.block (s := S16384x16384) S1024x1024.size (cc3_transform_2 i) (hinb3_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v28) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v66) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S16384x256 : Shape := ⟨2, ![16384, 256]⟩
abbrev S524288 : Shape := ⟨1, ![524288]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S524288x256 : Shape := ⟨2, ![524288, 256]⟩
abbrev S16384x128 : Shape := ⟨2, ![16384, 128]⟩
abbrev S1x128 : Shape := ⟨2, ![1, 128]⟩
abbrev S524288x128 : Shape := ⟨2, ![524288, 128]⟩
abbrev S16384x64 : Shape := ⟨2, ![16384, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 112
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S524288, .i32⟩
  | .hbm, ⟨2, _⟩ => ⟨S524288, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S524288, .f32⟩
  | .hbm, ⟨11, _⟩ => ⟨S_, .f32⟩
  | .hbm, ⟨12, _⟩ => ⟨S16384, .f32⟩
  | .hbm, ⟨13, _⟩ => ⟨S524288x1, .i32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S524288x1, .i32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x256, .f32⟩
  | .hbm, ⟨29, _⟩ => ⟨S16384x256, .f32⟩
  | .hbm, ⟨30, _⟩ => ⟨S_, .i32⟩
  | .hbm, ⟨31, _⟩ => ⟨S524288, .i32⟩
  | .hbm, ⟨32, _⟩ => ⟨S524288, .i1⟩
  | .hbm, ⟨33, _⟩ => ⟨S_, .i32⟩
  | .hbm, ⟨34, _⟩ => ⟨S524288, .i32⟩
  | .hbm, ⟨35, _⟩ => ⟨S524288, .i32⟩
  | .hbm, ⟨36, _⟩ => ⟨S524288, .i32⟩
  | .hbm, ⟨37, _⟩ => ⟨S524288x1, .i32⟩
  | .hbm, ⟨38, _⟩ => ⟨S524288x256, .f32⟩
  | .hbm, ⟨39, _⟩ => ⟨S_, .f32⟩
  | .hbm, ⟨40, _⟩ => ⟨S16384x256, .f32⟩
  | .hbm, ⟨41, _⟩ => ⟨S524288x1, .i32⟩
  | .hbm, ⟨42, _⟩ => ⟨S16384x256, .f32⟩
  | .hbm, ⟨43, _⟩ => ⟨S16384x1, .f32⟩
  | .hbm, ⟨44, _⟩ => ⟨S16384x256, .f32⟩
  | .hbm, ⟨45, _⟩ => ⟨S16384x256, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | .hbm, ⟨50, _⟩ => ⟨S_, .f32⟩
  | .hbm, ⟨51, _⟩ => ⟨S16384x128, .f32⟩
  | .hbm, ⟨52, _⟩ => ⟨S16384x128, .f32⟩
  | .hbm, ⟨53, _⟩ => ⟨S16384x1, .f32⟩
  | .hbm, ⟨54, _⟩ => ⟨S16384x128, .f32⟩
  | .hbm, ⟨55, _⟩ => ⟨S16384x128, .f32⟩
  | .hbm, ⟨56, _⟩ => ⟨S_, .i32⟩
  | .hbm, ⟨57, _⟩ => ⟨S524288, .i32⟩
  | .hbm, ⟨58, _⟩ => ⟨S524288, .i1⟩
  | .hbm, ⟨59, _⟩ => ⟨S_, .i32⟩
  | .hbm, ⟨60, _⟩ => ⟨S524288, .i32⟩
  | .hbm, ⟨61, _⟩ => ⟨S524288, .i32⟩
  | .hbm, ⟨62, _⟩ => ⟨S524288, .i32⟩
  | .hbm, ⟨63, _⟩ => ⟨S524288x1, .i32⟩
  | .hbm, ⟨64, _⟩ => ⟨S524288x128, .f32⟩
  | .hbm, ⟨65, _⟩ => ⟨S_, .f32⟩
  | .hbm, ⟨66, _⟩ => ⟨S16384x128, .f32⟩
  | .hbm, ⟨67, _⟩ => ⟨S524288x1, .i32⟩
  | .hbm, ⟨68, _⟩ => ⟨S16384x128, .f32⟩
  | .hbm, ⟨69, _⟩ => ⟨S16384x1, .f32⟩
  | .hbm, ⟨70, _⟩ => ⟨S16384x128, .f32⟩
  | .hbm, ⟨71, _⟩ => ⟨S16384x128, .f32⟩
  | .hbm, ⟨72, _⟩ => ⟨S16384x128, .f32⟩
  | .hbm, ⟨73, _⟩ => ⟨S1x128, .f32⟩
  | .hbm, ⟨74, _⟩ => ⟨S16384x128, .f32⟩
  | .hbm, ⟨75, _⟩ => ⟨S16384x128, .f32⟩
  | .hbm, ⟨76, _⟩ => ⟨S_, .f32⟩
  | .hbm, ⟨77, _⟩ => ⟨S16384x128, .f32⟩
  | .hbm, ⟨78, _⟩ => ⟨S16384x128, .f32⟩
  | .hbm, ⟨79, _⟩ => ⟨S16384x1, .f32⟩
  | .hbm, ⟨80, _⟩ => ⟨S16384x128, .f32⟩
  | .hbm, ⟨81, _⟩ => ⟨S16384x128, .f32⟩
  | .hbm, ⟨82, _⟩ => ⟨S_, .i32⟩
  | .hbm, ⟨83, _⟩ => ⟨S524288, .i32⟩
  | .hbm, ⟨84, _⟩ => ⟨S524288, .i1⟩
  | .hbm, ⟨85, _⟩ => ⟨S_, .i32⟩
  | .hbm, ⟨86, _⟩ => ⟨S524288, .i32⟩
  | .hbm, ⟨87, _⟩ => ⟨S524288, .i32⟩
  | .hbm, ⟨88, _⟩ => ⟨S524288, .i32⟩
  | .hbm, ⟨89, _⟩ => ⟨S524288x1, .i32⟩
  | .hbm, ⟨90, _⟩ => ⟨S524288x128, .f32⟩
  | .hbm, ⟨91, _⟩ => ⟨S_, .f32⟩
  | .hbm, ⟨92, _⟩ => ⟨S16384x128, .f32⟩
  | .hbm, ⟨93, _⟩ => ⟨S524288x1, .i32⟩
  | .hbm, ⟨94, _⟩ => ⟨S16384x128, .f32⟩
  | .hbm, ⟨95, _⟩ => ⟨S16384x1, .f32⟩
  | .hbm, ⟨96, _⟩ => ⟨S16384x128, .f32⟩
  | .hbm, ⟨97, _⟩ => ⟨S16384x128, .f32⟩
  | .hbm, ⟨98, _⟩ => ⟨S16384x64, .f32⟩
  | .hbm, ⟨99, _⟩ => ⟨S1x64, .f32⟩
  | .hbm, ⟨100, _⟩ => ⟨S16384x64, .f32⟩
  | .hbm, ⟨101, _⟩ => ⟨S16384x64, .f32⟩
  | .hbm, ⟨102, _⟩ => ⟨S64x16384, .f32⟩
  | .hbm, ⟨103, _⟩ => ⟨S16384x16384, .f32⟩
  | .hbm, ⟨104, _⟩ => ⟨S16384x16384, .f32⟩
  | .hbm, ⟨105, _⟩ => ⟨S16384x16384, .f32⟩
  | .hbm, ⟨106, _⟩ => ⟨S_, .f32⟩
  | .hbm, ⟨107, _⟩ => ⟨S16384x16384, .f32⟩
  | .hbm, ⟨108, _⟩ => ⟨S16384x16384, .f32⟩
  | .hbm, ⟨109, _⟩ => ⟨S_, .f32⟩
  | .hbm, ⟨110, _⟩ => ⟨S16384x16384, .f32⟩
  | .hbm, ⟨111, _⟩ => ⟨S16384x16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_12 : Ref sig .tc := ⟨.hbm, 106, rfl⟩
abbrev main_v79 : Ref sig .tc := ⟨.hbm, 107, rfl⟩
abbrev main_v80 : Ref sig .tc := ⟨.hbm, 108, rfl⟩
abbrev main_cst_13 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  bcast_S_S16384x16384 : S_.BroadcastsInDim S16384x16384 (![] : Fin 0 → Fin S16384x16384.rank)
  scatter_S16384_S524288x1_S524288_n_0_0_1_wf : ScatterDims.WF S16384 S524288x1 S524288 [] [0] [0] 1
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x128_S16384x128_1_0_0_1_n_n_wf : DotDims.WF S16384x256 S256x128 S16384x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x16384_S16384x16384_1_0_0_1_n_n_wf : DotDims.WF S16384x64 S64x16384 S16384x16384 [1] [0] [0] [1] [] []

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.K.Region0.lean ====
/-
  Region 0 of the program: a dense layer's pallas_call, on a grid of 8 row blocks.
  Window 0 is a 2048-row block of the layer's input, windows 1 and 2 are the weight matrix and the bias row
  (one block each, the same at every grid point), window 3 is the 2048-row block of the layer's output.
  Stated at a parameter `V`, the contents of the core's buffers when the region is entered: what each window's
  block is (`iblk0`), what the body leaves in the output block as a function of the three input blocks (`out0_3`:
  the body's single whole-block store of its payload), the body's triple, the pipeline's proof data (`dat0`) and the
  body obligation at every grid point. Nothing here depends on the float instance.
-/
import proofs.«137523_j23356032156257_1_alg».proof.Proof.Gen.Kernel.Launch
import proofs.«137523_j23356032156257_1_alg».proof.Proof.Gen.Kernel.Skeleton
import proofs.«137523_j23356032156257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its row block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's staging buffer holds the whole weight matrix at every point: fetched at the first point, and
    its block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias window's staging buffer holds the bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S2048x128 := Rect.unit (s := S2048x128) ![0, 0] S2048x128.size inb_S2048x128_S2048x128_0_0

/-! ## What the body leaves in the output block -/

/-- The output block after the body, from the three input blocks: one whole-block store of the body's payload
    (the body's arithmetic on the input block, the weights and the bias row). -/
def out0_3 (x0 : Vec F S2048x256 .f32) (x1 : Vec F S256x128 .f32) (x2 : Vec F S1x128 .f32) : Vec F S2048x128 .f32 :=
  View.canon [⟨r0_3, k0_pay1 (View.ld x0 r0_0) (View.ld x1 r0_1) (View.ld x2 r0_2)⟩]

/-- The one store covers the block. -/
theorem cover0_3 (p0 : Vec F S2048x128 .f32) (y : S2048x128.Idx) :
    ∃ pc ∈ ([⟨r0_3, p0⟩] : List (View.Piece (Elt F) S2048x128 .f32)), y ∈ pc.1.set :=
  View.cover_of_tiled [⟨r0_3, p0⟩] S2048x128.size (by rfl) y

/-! ## The body's triple -/

set_option maxHeartbeats 1000000 in
/-- The body on whole staging buffers — the inputs' at known contents, the output's at anything — runs to the
    continuation with the inputs as they were and the output at `out0_3` of the inputs. -/
theorem sound_kernel0 (c : Dev nD) (E : Set ℕ) (i : grid0.Coords) (arg1 : Memref sig .tc .vmem S2048x256 .f32) (harg1 : arg1.IsWhole)
    (arg2 : Memref sig .tc .vmem S256x128 .f32) (harg2 : arg2.IsWhole) (arg3 : Memref sig .tc .vmem S1x128 .f32) (harg3 : arg3.IsWhole)
    (arg4 : Memref sig .tc .vmem S2048x128 .f32) (harg4 : arg4.IsWhole)
    (x0 : Vec F S2048x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region on core `c`: the arrays as the region finds them; after the body at point `t` each
    input buffer still at its block and the output buffer at `out0_3` of the input blocks; the invariant is the
    untouched rest (the scoped buffers no window stages and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program: a dense layer's pallas_call, on a grid of 8 row blocks.
  Window 0 is a 2048-row block of the layer's input, windows 1 and 2 are the weight matrix and the bias row
  (one block each, the same at every grid point), window 3 is the 2048-row block of the layer's output.
  Stated at a parameter `V`, the contents of the core's buffers when the region is entered: what each window's
  block is (`iblk1`), what the body leaves in the output block as a function of the three input blocks (`out1_3`:
  the body's single whole-block store of its payload), the body's triple, the pipeline's proof data (`dat1`) and the
  body obligation at every grid point. Nothing here depends on the float instance.
-/
import proofs.«137523_j23356032156257_1_alg».proof.Proof.Gen.Kernel.Launch
import proofs.«137523_j23356032156257_1_alg».proof.Proof.Gen.Kernel.Skeleton
import proofs.«137523_j23356032156257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds its row block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight window's staging buffer holds the whole weight matrix at every point: fetched at the first point, and
    its block index never moves afterwards. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias window's staging buffer holds the bias row at every point, for the same reason. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S2048x128 := Rect.unit (s := S2048x128) ![0, 0] S2048x128.size inb_S2048x128_S2048x128_0_0

/-! ## What the body leaves in the output block -/

/-- The output block after the body, from the three input blocks: one whole-block store of the body's payload
    (the body's arithmetic on the input block, the weights and the bias row). -/
def out1_3 (x0 : Vec F S2048x128 .f32) (x1 : Vec F S128x128 .f32) (x2 : Vec F S1x128 .f32) : Vec F S2048x128 .f32 :=
  View.canon [⟨r1_3, k1_pay1 (View.ld x0 r1_0) (View.ld x1 r1_1) (View.ld x2 r1_2)⟩]

/-- The one store covers the block. -/
theorem cover1_3 (p0 : Vec F S2048x128 .f32) (y : S2048x128.Idx) :
    ∃ pc ∈ ([⟨r1_3, p0⟩] : List (View.Piece (Elt F) S2048x128 .f32)), y ∈ pc.1.set :=
  View.cover_of_tiled [⟨r1_3, p0⟩] S2048x128.size (by rfl) y

/-! ## The body's triple -/

set_option maxHeartbeats 1000000 in
/-- The body on whole staging buffers — the inputs' at known contents, the output's at anything — runs to the
    continuation with the inputs as they were and the output at `out1_3` of the inputs. -/
theorem sound_kernel1 (c : Dev nD) (E : Set ℕ) (i : grid1.Coords) (arg1 : Memref sig .tc .vmem S2048x128 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S2048x128 .f32) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region on core `c`: the arrays as the region finds them; after the body at point `t` each
    input buffer still at its block and the output buffer at `out1_3` of the input blocks; the invariant is the
    untouched rest (the scoped buffers no window stages and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the program: a dense layer's pallas_call, on a grid of 8 row blocks.
  Window 0 is a 2048-row block of the layer's input, windows 1 and 2 are the weight matrix and the bias row
  (one block each, the same at every grid point), window 3 is the 2048-row block of the layer's output.
  Stated at a parameter `V`, the contents of the core's buffers when the region is entered: what each window's
  block is (`iblk2`), what the body leaves in the output block as a function of the three input blocks (`out2_3`:
  the body's single whole-block store of its payload), the body's triple, the pipeline's proof data (`dat2`) and the
  body obligation at every grid point. Nothing here depends on the float instance.
-/
import proofs.«137523_j23356032156257_1_alg».proof.Proof.Gen.Kernel.Launch
import proofs.«137523_j23356032156257_1_alg».proof.Proof.Gen.Kernel.Skeleton
import proofs.«137523_j23356032156257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's staging buffer holds its row block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's staging buffer holds the whole weight matrix at every point: fetched at the first point, and
    its block index never moves afterwards. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias window's staging buffer holds the bias row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_0 : Rect S2048x128 := Rect.unit (s := S2048x128) ![0, 0] S2048x128.size inb_S2048x128_S2048x128_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S2048x64 := Rect.unit (s := S2048x64) ![0, 0] S2048x64.size inb_S2048x64_S2048x64_0_0

/-! ## What the body leaves in the output block -/

/-- The output block after the body, from the three input blocks: one whole-block store of the body's payload
    (the body's arithmetic on the input block, the weights and the bias row). -/
def out2_3 (x0 : Vec F S2048x128 .f32) (x1 : Vec F S128x64 .f32) (x2 : Vec F S1x64 .f32) : Vec F S2048x64 .f32 :=
  View.canon [⟨r2_3, k2_pay1 (View.ld x0 r2_0) (View.ld x1 r2_1) (View.ld x2 r2_2)⟩]

/-- The one store covers the block. -/
theorem cover2_3 (p0 : Vec F S2048x64 .f32) (y : S2048x64.Idx) :
    ∃ pc ∈ ([⟨r2_3, p0⟩] : List (View.Piece (Elt F) S2048x64 .f32)), y ∈ pc.1.set :=
  View.cover_of_tiled [⟨r2_3, p0⟩] S2048x64.size (by rfl) y

/-! ## The body's triple -/

set_option maxHeartbeats 1000000 in
/-- The body on whole staging buffers — the inputs' at known contents, the output's at anything — runs to the
    continuation with the inputs as they were and the output at `out2_3` of the inputs. -/
theorem sound_kernel2 (c : Dev nD) (E : Set ℕ) (i : grid2.Coords) (arg1 : Memref sig .tc .vmem S2048x128 .f32) (harg1 : arg1.IsWhole)
    (arg2 : Memref sig .tc .vmem S128x64 .f32) (harg2 : arg2.IsWhole) (arg3 : Memref sig .tc .vmem S1x64 .f32) (harg3 : arg3.IsWhole)
    (arg4 : Memref sig .tc .vmem S2048x64 .f32) (harg4 : arg4.IsWhole)
    (x0 : Vec F S2048x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this region on core `c`: the arrays as the region finds them; after the body at point `t` each
    input buffer still at its block and the output buffer at `out2_3` of the input blocks; the invariant is the
    untouched rest (the scoped buffers no window stages and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Region 3 of the program: the decoder's pallas_call on a 16 × 16 grid of output tiles.
  Windows 0 and 1 both read the embedding array `z` (16384 × 64): window 0 the 1024-row block of the tile's row index,
  window 1 the 1024-row block of the tile's column index; window 2 is the 1024 × 1024 output tile. Since two windows
  read one array, each holds it at half of the full share. Stated at a parameter `V`, the contents of the core's
  buffers when the region is entered: the windows' blocks (`iblk3`), what the body leaves in the output tile as a
  function of the two input blocks (`out3_2`), the body's triple, the proof data (`dat3`) and the body obligation at
  every grid point. Nothing here depends on the float instance.
-/
import proofs.«137523_j23356032156257_1_alg».proof.Proof.Gen.Kernel.Launch
import proofs.«137523_j23356032156257_1_alg».proof.Proof.Gen.Kernel.Skeleton
import proofs.«137523_j23356032156257_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-side window's staging buffer holds its block of `z` at every point: fetched when the tile's row index
    changes, and in place between. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The column-side window's staging buffer holds its block of `z` at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read or written whole -/

abbrev r3_0 : Rect S1024x64 := Rect.unit (s := S1024x64) ![0, 0] S1024x64.size inb_S1024x64_S1024x64_0_0
abbrev r3_2 : Rect S1024x1024 := Rect.unit (s := S1024x1024) ![0, 0] S1024x1024.size inb_S1024x1024_S1024x1024_0_0

/-! ## What the body leaves in the output tile -/

/-- The output tile after the body, from the two input blocks: one whole-tile store of the body's payload (the
    logistic function of the row block times the transposed column block). -/
def out3_2 (x0 : Vec F S1024x64 .f32) (x1 : Vec F S1024x64 .f32) : Vec F S1024x1024 .f32 :=
  View.canon [⟨r3_2, k3_pay1 (View.ld x0 r3_0) (View.ld x1 r3_0)⟩]

/-- The one store covers the tile. -/
theorem cover3_2 (p0 : Vec F S1024x1024 .f32) (y : S1024x1024.Idx) :
    ∃ pc ∈ ([⟨r3_2, p0⟩] : List (View.Piece (Elt F) S1024x1024 .f32)), y ∈ pc.1.set :=
  View.cover_of_tiled [⟨r3_2, p0⟩] S1024x1024.size (by rfl) y

/-! ## The body's triple -/

set_option maxHeartbeats 1000000 in
/-- The body on whole staging buffers — the inputs' at known contents, the output's at anything — runs to the
    continuation with the inputs as they were and the output at `out3_2` of the inputs. -/
theorem sound_kernel3 (c : Dev nD) (E : Set ℕ) (i : grid3.Coords) (arg2 : Memref sig .tc .vmem S1024x64 .f32) (harg2 : arg2.IsWhole)
    (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decoder_kernel i arg2 harg2 arg3 harg3 arg4 harg4) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this region on core `c`: the arrays as the region finds them; after the body at point `t` each
    input buffer still at its block and the output tile at `out3_2` of the input blocks; the invariant is the
    untouched rest; nothing owed; the two windows on `z` hold it at the two halves of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Vals.lean ====
/-
  The contents of the core's unscoped buffers at each boundary between two items of @main, from the launch to the
  return: a host stretch applies its operations (`StableHlo.after`); a kernel region changes only its output
  array, which ends at what the pipeline's write-backs leave there (`Dat.arrAt … N` of that region's proof data,
  taken at the contents the region was entered from). Seven items: stretch, layer 1, stretch, layer 2, stretch,
  layer 3, decoder.
-/
import proofs.«137523_j23356032156257_1_alg».proof.Proof.K.Region0
import proofs.«137523_j23356032156257_1_alg».proof.Proof.K.Region1
import proofs.«137523_j23356032156257_1_alg».proof.Proof.K.Region2
import proofs.«137523_j23356032156257_1_alg».proof.Proof.K.Region3
import proofs.«137523_j23356032156257_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev W0 (c : Dev nD) : Valuation τ sig (Elt F) := fun b => m (c, b)
/-- After the first host stretch (layer 1's entry). -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b
/-- After layer 1: its output array at what the pipeline leaves. -/
def W2 (c : Dev nD) : Valuation τ sig (Elt F) := Function.update (W1 m c) main_v30 ((dat0 (V1 m) c).arrAt 3 cfg0.N)
abbrev V2 : (c : Dev nD) → (b : Ref sig .tc) → Buf (Elt F) ((c : Thread nD τ).loc b) := fun c b => W2 m c b
/-- After the second host stretch (layer 2's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After layer 2. -/
def W4 (c : Dev nD) : Valuation τ sig (Elt F) := Function.update (W3 m c) main_v48 ((dat1 (V3 m) c).arrAt 3 cfg1.N)
abbrev V4 : (c : Dev nD) → (b : Ref sig .tc) → Buf (Elt F) ((c : Thread nD τ).loc b) := fun c b => W4 m c b
/-- After the third host stretch (layer 3's entry). -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- After layer 3 (the decoder's entry). -/
def W6 (c : Dev nD) : Valuation τ sig (Elt F) := Function.update (W5 m c) main_v66 ((dat2 (V5 m) c).arrAt 3 cfg2.N)
abbrev V6 : (c : Dev nD) → (b : Ref sig .tc) → Buf (Elt F) ((c : Thread nD τ).loc b) := fun c b => W6 m c b
/-- After the decoder: the return. -/
def W7 (c : Dev nD) : Valuation τ sig (Elt F) := Function.update (W6 m c) main_v67 ((dat3 (V6 m) c).arrAt 2 cfg3.N)
abbrev V7 : (c : Dev nD) → (b : Ref sig .tc) → Buf (Elt F) ((c : Thread nD τ).loc b) := fun c b => W7 m c b

/-! ## A region changes its output array only -/

theorem W2_out (c : Dev nD) : W2 m c main_v30 = (dat0 (V1 m) c).arrAt 3 cfg0.N := by
  unfold W2; exact Function.update_self ..
theorem W2_of_ne (c : Dev nD) (b : Ref sig .tc) (h : b ≠ main_v30) : W2 m c b = W1 m c b := by
  unfold W2; exact Function.update_of_ne (StableHlo.devRef_ne_of_ne h) ..
theorem W4_out (c : Dev nD) : W4 m c main_v48 = (dat1 (V3 m) c).arrAt 3 cfg1.N := by
  unfold W4; exact Function.update_self ..
theorem W4_of_ne (c : Dev nD) (b : Ref sig .tc) (h : b ≠ main_v48) : W4 m c b = W3 m c b := by
  unfold W4; exact Function.update_of_ne (StableHlo.devRef_ne_of_ne h) ..
theorem W6_out (c : Dev nD) : W6 m c main_v66 = (dat2 (V5 m) c).arrAt 3 cfg2.N := by
  unfold W6; exact Function.update_self ..
theorem W6_of_ne (c : Dev nD) (b : Ref sig .tc) (h : b ≠ main_v66) : W6 m c b = W5 m c b := by
  unfold W6; exact Function.update_of_ne (StableHlo.devRef_ne_of_ne h) ..
theorem W7_out (c : Dev nD) : W7 m c main_v67 = (dat3 (V6 m) c).arrAt 2 cfg3.N := by
  unfold W7; exact Function.update_self ..
theorem W7_of_ne (c : Dev nD) (b : Ref sig .tc) (h : b ≠ main_v67) : W7 m c b = W6 m c b := by
  unfold W7; exact Function.update_of_ne (StableHlo.devRef_ne_of_ne h) ..

/-! ## A host stretch changes only what its operations write -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- A buffer no item writes reaches the return as launched. -/
theorem W7_kept (c : Dev nD) (r : Ref sig .tc) (h0 : r ∉ hostOps0_W) (h1 : r ∉ hostOps1_W) (h2 : r ∉ hostOps2_W)
    (h30 : r ≠ main_v30) (h48 : r ≠ main_v48) (h66 : r ≠ main_v66) (h67 : r ≠ main_v67) : W7 m c r = m ((c : Thread nD τ).loc r) :=
  (W7_of_ne m c r h67).trans <| (W6_of_ne m c r h66).trans <| (W5_of m c r h2).trans <| (W4_of_ne m c r h48).trans <|
    (W3_of m c r h1).trans <| (W2_of_ne m c r h30).trans <| (W1_of m c r h0).trans rfl

end Cert.Kernel.Hand

end
-- ==== Proof.K.Family.lean ====
/-
  The family of the four pipelines' proof data, each taken at the contents its region is entered from, and the thread
  state a core carries between two items of @main: every unscoped buffer at the boundary's contents, the generator
  register at some state, and the fact that the core owes nothing.
-/
import proofs.«137523_j23356032156257_1_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the fact
    that it owes nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Reg0.lean ====
/-
  Region 0 as a segment of @main. Entered holding every unscoped buffer at the contents before it, the region takes
  its four arrays out of them (three inputs and the output, distinct buffers, each whole), runs the pipeline over the
  region's proof data, and puts the arrays back: an input array as it was, the output array at what the write-backs
  left there. Every other buffer is untouched.
-/
import proofs.«137523_j23356032156257_1_alg».proof.Proof.K.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's exit each of its arrays holds what the pipeline leaves — an input array what it held, the output
    array its write-backs — and every other buffer what it held at the entry. -/
theorem hF0 (c : Dev nD) (w : Fin cfg0.W) : (dat0 (V1 m) c).arrAt w cfg0.N = V2 m c (Pipeline.arrRef spec0 w) :=
  match w with
  | ⟨0, _⟩ => ((dat0 (V1 m) c).arrAt_in 0 rfl _).trans ((A_eq0 (V1 m) c 0).trans (W2_of_ne m c _ (by decide)).symm)
  | ⟨1, _⟩ => ((dat0 (V1 m) c).arrAt_in 1 rfl _).trans ((A_eq0 (V1 m) c 1).trans (W2_of_ne m c _ (by decide)).symm)
  | ⟨2, _⟩ => ((dat0 (V1 m) c).arrAt_in 2 rfl _).trans ((A_eq0 (V1 m) c 2).trans (W2_of_ne m c _ (by decide)).symm)
  | ⟨3, _⟩ => (W2_out m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

-- unification of a library lemma stated over the pinned configuration with the printed one unfolds plain definitions in a
-- metavariable's type
set_option backward.isDefEq.respectTransparency.types false in
/-- Region 0 over the thread state: entered from every unscoped buffer at `W1`, left at `W2`. Its arrays are split
    out of the unscoped buffers at the entry and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Region 1 as a segment of @main. Entered holding every unscoped buffer at the contents before it, the region takes
  its four arrays out of them (three inputs and the output, distinct buffers, each whole), runs the pipeline over the
  region's proof data, and puts the arrays back: an input array as it was, the output array at what the write-backs
  left there. Every other buffer is untouched.
-/
import proofs.«137523_j23356032156257_1_alg».proof.Proof.K.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 1's exit each of its arrays holds what the pipeline leaves — an input array what it held, the output
    array its write-backs — and every other buffer what it held at the entry. -/
theorem hF1 (c : Dev nD) (w : Fin cfg1.W) : (dat1 (V3 m) c).arrAt w cfg1.N = V4 m c (Pipeline.arrRef spec1 w) :=
  match w with
  | ⟨0, _⟩ => ((dat1 (V3 m) c).arrAt_in 0 rfl _).trans ((A_eq1 (V3 m) c 0).trans (W4_of_ne m c _ (by decide)).symm)
  | ⟨1, _⟩ => ((dat1 (V3 m) c).arrAt_in 1 rfl _).trans ((A_eq1 (V3 m) c 1).trans (W4_of_ne m c _ (by decide)).symm)
  | ⟨2, _⟩ => ((dat1 (V3 m) c).arrAt_in 2 rfl _).trans ((A_eq1 (V3 m) c 2).trans (W4_of_ne m c _ (by decide)).symm)
  | ⟨3, _⟩ => (W4_out m c).symm
theorem hrest1 (c : Dev nD) : ∀ b, b ∉ Finset.univ.image (Pipeline.arrRef spec1) → V4 m c b = V3 m c b :=
  fun b hb => W4_of_ne m c b fun e => hb (Finset.mem_image.mpr ⟨3, Finset.mem_univ _, e.symm⟩)

-- unification of a library lemma stated over the pinned configuration with the printed one unfolds plain definitions in a
-- metavariable's type
set_option backward.isDefEq.respectTransparency.types false in
/-- Region 1 over the thread state: entered from every unscoped buffer at `W3`, left at `W4`. Its arrays are split
    out of the unscoped buffers at the entry and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Region 2 as a segment of @main. Entered holding every unscoped buffer at the contents before it, the region takes
  its four arrays out of them (three inputs and the output, distinct buffers, each whole), runs the pipeline over the
  region's proof data, and puts the arrays back: an input array as it was, the output array at what the write-backs
  left there. Every other buffer is untouched.
-/
import proofs.«137523_j23356032156257_1_alg».proof.Proof.K.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 2's exit each of its arrays holds what the pipeline leaves — an input array what it held, the output
    array its write-backs — and every other buffer what it held at the entry. -/
theorem hF2 (c : Dev nD) (w : Fin cfg2.W) : (dat2 (V5 m) c).arrAt w cfg2.N = V6 m c (Pipeline.arrRef spec2 w) :=
  match w with
  | ⟨0, _⟩ => ((dat2 (V5 m) c).arrAt_in 0 rfl _).trans ((A_eq2 (V5 m) c 0).trans (W6_of_ne m c _ (by decide)).symm)
  | ⟨1, _⟩ => ((dat2 (V5 m) c).arrAt_in 1 rfl _).trans ((A_eq2 (V5 m) c 1).trans (W6_of_ne m c _ (by decide)).symm)
  | ⟨2, _⟩ => ((dat2 (V5 m) c).arrAt_in 2 rfl _).trans ((A_eq2 (V5 m) c 2).trans (W6_of_ne m c _ (by decide)).symm)
  | ⟨3, _⟩ => (W6_out m c).symm
theorem hrest2 (c : Dev nD) : ∀ b, b ∉ Finset.univ.image (Pipeline.arrRef spec2) → V6 m c b = V5 m c b :=
  fun b hb => W6_of_ne m c b fun e => hb (Finset.mem_image.mpr ⟨3, Finset.mem_univ _, e.symm⟩)

-- unification of a library lemma stated over the pinned configuration with the printed one unfolds plain definitions in a
-- metavariable's type
set_option backward.isDefEq.respectTransparency.types false in
/-- Region 2 over the thread state: entered from every unscoped buffer at `W5`, left at `W6`. Its arrays are split
    out of the unscoped buffers at the entry and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Shared3.lean ====
/-
  The decoder's arrays, with one array behind two windows. The embedding array `z` is read by window 0 and by
  window 1, so the pipeline holds it twice, at the two halves of the full share; the output array is held whole.
  A core's unscoped buffers therefore split into: `z` at the left half, `z` at the right half, the output at the full
  share, and the rest; and they join again the same way once the output holds what the pipeline left there.
-/
import proofs.«137523_j23356032156257_1_alg».proof.Proof.K.Region3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem arrRef3_0 : Pipeline.arrRef spec3 0 = main_v66 := rfl
theorem arrRef3_1 : Pipeline.arrRef spec3 1 = main_v66 := rfl
theorem arrRef3_2 : Pipeline.arrRef spec3 2 = main_v67 := rfl

theorem image_arrRef3 : Finset.univ.image (Pipeline.arrRef spec3) = {main_v66, main_v67} := by decide

/-- The pipeline's arrays at contents `G`, window by window. -/
theorem arrays3_eq (c : Dev nD) (G : (w : Fin cfg3.W) → Buf (Elt F) ((cfg3.win w).arr.view.loc (c.tc : Thread nD τ))) :
    ((dat3 V c).arrays G : sProp 𝕄) = iprop((((c.tc : Thread nD τ).loc main_v66) ↦{fullShare.left} G 0)
      ∗ (((c.tc : Thread nD τ).loc main_v66) ↦{fullShare.right} G 1) ∗ (((c.tc : Thread nD τ).loc main_v67) ↦{fullShare} G 2)) := by
  unfold Dat.arrays
  rw [bigSep_W3, show (cfg3.win 0).arr.view.set = Finset.univ from (arr_whole3 0).set_eq_univ,
    show (cfg3.win 2).arr.view.set = Finset.univ from (arr_whole3 2).set_eq_univ]
  rfl

/-- The two distinct buffers behind the decoder's three windows, each whole at the full share. -/
theorem arrBufs3_eq (c : Dev nD) (Vc : (b : Ref sig .tc) → Buf (Elt F) ((c.tc : Thread nD τ).loc b)) :
    (Pipeline.arrBufs (cfgs 3).spec c Vc : sProp 𝕄)
      = iprop((((c.tc : Thread nD τ).loc main_v66) ↦{fullShare} Vc main_v66) ∗ (((c.tc : Thread nD τ).loc main_v67) ↦{fullShare} Vc main_v67)) := by
  unfold Pipeline.arrBufs
  rw [show Finset.univ.image (Pipeline.arrRef (cfgs 3).spec) = {main_v66, main_v67} from image_arrRef3,
    bigSep_insert (by decide), bigSep_singleton]
  rfl

/-- ENTRY: a core's unscoped buffers at contents `Vc` are the decoder's arrays at those contents — the embedding
    array split into its two halves, one per window on it — and the rest. -/
theorem entry3 (c : Dev nD) (Vc : (b : Ref sig .tc) → Buf (Elt F) ((c.tc : Thread nD τ).loc b)) :
    (unscopedBufs c Vc : sProp 𝕄) ⊢ iprop((dat3 V c).arrays (fun w => Vc (Pipeline.arrRef spec3 w)) ∗ Pipeline.unscopedRest spec3 c Vc) := by
  rw [Pipeline.unscopedBufs_split₀ (Ix := Unit) (Name := ℕ) (U := UR sig nD τ) (Lvl := ℕ) cfgs 3 winFacts₀3.arr_unscoped c Vc,
    arrays3_eq, arrBufs3_eq]
  iintro ⟨⟨Hz, Ho⟩, Hr⟩
  ihave Hz := (pointsTo_share (PosShare.mem_left_op_right fullShare)).1 $$ Hz
  icases Hz with ⟨Hz1, Hz2⟩
  isplitr [Hr]
  · isplitl [Hz1]; · iexact Hz1
    isplitl [Hz2]; · iexact Hz2
    iexact Ho
  · iexact Hr

/-- EXIT: the decoder's arrays at contents `G` — the same contents behind both windows on the embedding array — and
    the rest at `Vc` are the core's unscoped buffers at any contents `Vc'` that has the arrays at `G` and agrees
    with `Vc` off them: the two halves of the embedding array join again. -/
theorem exit3 (c : Dev nD) (Vc Vc' : (b : Ref sig .tc) → Buf (Elt F) ((c.tc : Thread nD τ).loc b))
    (G : (w : Fin cfg3.W) → Buf (Elt F) ((cfg3.win w).arr.view.loc (c.tc : Thread nD τ)))
    (hG0 : G 0 = Vc' main_v66) (hG1 : G 1 = Vc' main_v66) (hG2 : G 2 = Vc' main_v67)
    (hrest : ∀ b, b ∉ Finset.univ.image (Pipeline.arrRef spec3) → Vc' b = Vc b) :
    iprop((dat3 V c).arrays G ∗ Pipeline.unscopedRest spec3 c Vc) ⊢ (unscopedBufs c Vc' : sProp 𝕄) := by
  rw [Pipeline.unscopedBufs_split₀ (Ix := Unit) (Name := ℕ) (U := UR sig nD τ) (Lvl := ℕ) cfgs 3 winFacts₀3.arr_unscoped c Vc',
    arrays3_eq, arrBufs3_eq, hG0, hG1, hG2]
  iintro ⟨⟨H0, H1, H2⟩, Hr⟩
  isplitr [Hr]
  · isplitr [H2]
    · iapply (pointsTo_share (PosShare.mem_left_op_right fullShare)).2
      isplitl [H0]; · iexact H0
      iexact H1
    · iexact H2
  · iapply (show (Pipeline.unscopedRest spec3 c Vc : sProp 𝕄) ⊢ Pipeline.unscopedRest (cfgs 3).spec c Vc' from
      Entails.of_eq (by unfold Pipeline.unscopedRest; exact bigSep_congr fun b hb => by rw [hrest b (Finset.mem_sdiff.mp hb).2]))
    iexact Hr

end Cert.Kernel.Hand

end
-- ==== Proof.K.Reg3.lean ====
/-
  The decoder's region as a segment of @main. Its two input windows read one array, the embeddings: the region takes
  that buffer out of the unscoped buffers once and holds it as two half shares, one behind each window, beside the
  output array held whole; at the exit the halves join again and the output holds what the write-backs left there.
-/
import proofs.«137523_j23356032156257_1_alg».proof.Proof.K.Family
import proofs.«137523_j23356032156257_1_alg».proof.Proof.K.Shared3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The decoder's arrays at its exit: the embedding array as entered (behind both input windows), the output at its
    write-backs; every other buffer as entered. -/
theorem hF3_0 (c : Dev nD) : (dat3 (V6 m) c).arrAt 0 cfg3.N = V7 m c main_v66 :=
  ((dat3 (V6 m) c).arrAt_in 0 rfl _).trans ((A_eq3 (V6 m) c 0).trans (W7_of_ne m c _ (by decide)).symm)
theorem hF3_1 (c : Dev nD) : (dat3 (V6 m) c).arrAt 1 cfg3.N = V7 m c main_v66 :=
  ((dat3 (V6 m) c).arrAt_in 1 rfl _).trans ((A_eq3 (V6 m) c 1).trans (W7_of_ne m c _ (by decide)).symm)
theorem hF3_2 (c : Dev nD) : (dat3 (V6 m) c).arrAt 2 cfg3.N = V7 m c main_v67 := (W7_out m c).symm
theorem hrest3 (c : Dev nD) : ∀ b, b ∉ Finset.univ.image (Pipeline.arrRef spec3) → V7 m c b = V6 m c b :=
  fun b hb => W7_of_ne m c b fun e => hb (Finset.mem_image.mpr ⟨2, Finset.mem_univ _, e.symm⟩)

-- unification of a library lemma stated over the pinned configuration with the printed one unfolds plain definitions in a
-- metavariable's type
set_option backward.isDefEq.respectTransparency.types false in
/-- The decoder's region over the thread state: entered from every unscoped buffer at `W6`, left at `W7`. The embedding
    array goes in split into two half shares, one behind each input window, and the halves join again at the exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit : (unscopedBufs c (V6 m c) : sProp 𝕄)
        ⊢ iprop((pdats m 3 c).arrays ((pdats m 3 c).arrAt · 0)
          ∗ Pipeline.unscopedRest (Ix := Unit) (Name := ℕ) (U := UR sig nD τ) (Lvl := ℕ) spec3 c (V6 m c)) :=
      entry3 (V6 m) c (V6 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V6 m c))
        ⊢ (unscopedBufs c (V7 m c) : sProp 𝕄) :=
      exit3 (V6 m) c (V6 m c) (V7 m c) ((dat3 (V6 m) c).arrAt · cfg3.N) (hF3_0 m c) (hF3_1 m c) (hF3_2 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
/-
  The run of the whole program. @main is seven items: three host stretches and four kernel regions. Between two
  items the core holds every unscoped buffer at the boundary's contents, beside its generator register and the fact
  that it owes nothing. A host stretch takes the contents to the result of its operations; a kernel region takes its
  arrays out, runs its pipeline, and puts them back with the output array at what the write-backs left. The launch over
  these seven segments gives: every weakly fair execution terminates, faulting nowhere, and at the end every unscoped
  buffer holds the last boundary's contents `W7`.
-/
import proofs.«137523_j23356032156257_1_alg».proof.Proof.K.Reg0
import proofs.«137523_j23356032156257_1_alg».proof.Proof.K.Reg1
import proofs.«137523_j23356032156257_1_alg».proof.Proof.K.Reg2
import proofs.«137523_j23356032156257_1_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m) ]

-- the launch theorem's implicit arguments are found by unifying its conclusion with this one, which takes unfolding plain
-- definitions in a metavariable's type
set_option backward.isDefEq.respectTransparency.types false in
/-- THE RUN: from any memory with zero counters, every weakly fair execution of @main terminates, nothing faulting,
    and every final memory holds every unscoped buffer at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Hand

end
-- ==== Proof.K.Frame.lean ====
/-
  What the run says about the claim's buffers. No item of @main writes an argument array — no host stretch lists one
  among the buffers it writes, and a region changes only its output array — so each argument ends at its launch
  contents: the frame. The two results end at the last boundary's contents: the embeddings at what the third layer's
  region left, the reconstruction at what the decoder's region left.
-/
import proofs.«137523_j23356032156257_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: every weakly fair execution terminates, faulting nowhere, and the nine argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W7_kept m c main_arg0 (by decide) (by decide) (by decide) (by decide) (by decide) (by decide) (by decide)),
    (h c _ (mem_uc main_arg1 (by decide))).trans (W7_kept m c main_arg1 (by decide) (by decide) (by decide) (by decide) (by decide) (by decide) (by decide)),
    (h c _ (mem_uc main_arg2 (by decide))).trans (W7_kept m c main_arg2 (by decide) (by decide) (by decide) (by decide) (by decide) (by decide) (by decide)),
    (h c _ (mem_uc main_arg3 (by decide))).trans (W7_kept m c main_arg3 (by decide) (by decide) (by decide) (by decide) (by decide) (by decide) (by decide)),
    (h c _ (mem_uc main_arg4 (by decide))).trans (W7_kept m c main_arg4 (by decide) (by decide) (by decide) (by decide) (by decide) (by decide) (by decide)),
    (h c _ (mem_uc main_arg5 (by decide))).trans (W7_kept m c main_arg5 (by decide) (by decide) (by decide) (by decide) (by decide) (by decide) (by decide)),
    (h c _ (mem_uc main_arg6 (by decide))).trans (W7_kept m c main_arg6 (by decide) (by decide) (by decide) (by decide) (by decide) (by decide) (by decide)),
    (h c _ (mem_uc main_arg7 (by decide))).trans (W7_kept m c main_arg7 (by decide) (by decide) (by decide) (by decide) (by decide) (by decide) (by decide)),
    (h c _ (mem_uc main_arg8 (by decide))).trans (W7_kept m c main_arg8 (by decide) (by decide) (by decide) (by decide) (by decide) (by decide) (by decide))⟩) (run_all m ρ)

/-- THE RESULTS: besides the frame, the reconstruction's and the embeddings' buffers end at the last boundary's
    contents. -/
theorem run_values : θ_run defs (onTc (τ := τ) (main (F := F))) ⟨m, fun _ => 0, ρ⟩ (fun r => ∀ c : Dev nD,
      r.2.mem ((c.tc : Thread nD τ).loc main_v67) = W7 m c main_v67
      ∧ r.2.mem ((c.tc : Thread nD τ).loc main_v66) = W7 m c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v67 (by decide)), h c _ (mem_uc main_v66 (by decide)),
    (h c _ (mem_uc main_arg0 (by decide))).trans (W7_kept m c main_arg0 (by decide) (by decide) (by decide) (by decide) (by decide) (by decide) (by decide)),
    (h c _ (mem_uc main_arg1 (by decide))).trans (W7_kept m c main_arg1 (by decide) (by decide) (by decide) (by decide) (by decide) (by decide) (by decide)),
    (h c _ (mem_uc main_arg2 (by decide))).trans (W7_kept m c main_arg2 (by decide) (by decide) (by decide) (by decide) (by decide) (by decide) (by decide)),
    (h c _ (mem_uc main_arg3 (by decide))).trans (W7_kept m c main_arg3 (by decide) (by decide) (by decide) (by decide) (by decide) (by decide) (by decide)),
    (h c _ (mem_uc main_arg4 (by decide))).trans (W7_kept m c main_arg4 (by decide) (by decide) (by decide) (by decide) (by decide) (by decide) (by decide)),
    (h c _ (mem_uc main_arg5 (by decide))).trans (W7_kept m c main_arg5 (by decide) (by decide) (by decide) (by decide) (by decide) (by decide) (by decide)),
    (h c _ (mem_uc main_arg6 (by decide))).trans (W7_kept m c main_arg6 (by decide) (by decide) (by decide) (by decide) (by decide) (by decide) (by decide)),
    (h c _ (mem_uc main_arg7 (by decide))).trans (W7_kept m c main_arg7 (by decide) (by decide) (by decide) (by decide) (by decide) (by decide) (by decide)),
    (h c _ (mem_uc main_arg8 (by decide))).trans (W7_kept m c main_arg8 (by decide) (by decide) (by decide) (by decide) (by decide) (by decide) (by decide))⟩) (run_all m ρ)

end Cert.Kernel.Hand

end
-- ==== Proof.KI.Region0.lean ====
/-
  Region 0 of the program: a dense layer's pallas_call, on a grid of 8 row blocks.
  Window 0 is a 2048-row block of the layer's input, windows 1 and 2 are the weight matrix and the bias row
  (one block each, the same at every grid point), window 3 is the 2048-row block of the layer's output.
  Stated at a parameter `V`, the contents of the core's buffers when the region is entered: what each window's
  block is (`iblk0`), what the body leaves in the output block as a function of the three input blocks (`out0_3`:
  the body's single whole-block store of its payload), the body's triple, the pipeline's proof data (`dat0`) and the
  body obligation at every grid point. Nothing here depends on the float instance.
-/
import proofs.«137523_j23356032156257_1_alg».proof.Proof.Gen.KernelIdeal.Launch
import proofs.«137523_j23356032156257_1_alg».proof.Proof.Gen.KernelIdeal.Skeleton
import proofs.«137523_j23356032156257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its row block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight window's staging buffer holds the whole weight matrix at every point: fetched at the first point, and
    its block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias window's staging buffer holds the bias row at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole -/

abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S2048x128 := Rect.unit (s := S2048x128) ![0, 0] S2048x128.size inb_S2048x128_S2048x128_0_0

/-! ## What the body leaves in the output block -/

/-- The output block after the body, from the three input blocks: one whole-block store of the body's payload
    (the body's arithmetic on the input block, the weights and the bias row). -/
def out0_3 (x0 : Vec F S2048x256 .f32) (x1 : Vec F S256x128 .f32) (x2 : Vec F S1x128 .f32) : Vec F S2048x128 .f32 :=
  View.canon [⟨r0_3, k0_pay1 (View.ld x0 r0_0) (View.ld x1 r0_1) (View.ld x2 r0_2)⟩]

/-- The one store covers the block. -/
theorem cover0_3 (p0 : Vec F S2048x128 .f32) (y : S2048x128.Idx) :
    ∃ pc ∈ ([⟨r0_3, p0⟩] : List (View.Piece (Elt F) S2048x128 .f32)), y ∈ pc.1.set :=
  View.cover_of_tiled [⟨r0_3, p0⟩] S2048x128.size (by rfl) y

/-! ## The body's triple -/

set_option maxHeartbeats 1000000 in
/-- The body on whole staging buffers — the inputs' at known contents, the output's at anything — runs to the
    continuation with the inputs as they were and the output at `out0_3` of the inputs. -/
theorem sound_kernel0 (c : Dev nD) (E : Set ℕ) (i : grid0.Coords) (arg1 : Memref sig .tc .vmem S2048x256 .f32) (harg1 : arg1.IsWhole)
    (arg2 : Memref sig .tc .vmem S256x128 .f32) (harg2 : arg2.IsWhole) (arg3 : Memref sig .tc .vmem S1x128 .f32) (harg3 : arg3.IsWhole)
    (arg4 : Memref sig .tc .vmem S2048x128 .f32) (harg4 : arg4.IsWhole)
    (x0 : Vec F S2048x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this region on core `c`: the arrays as the region finds them; after the body at point `t` each
    input buffer still at its block and the output buffer at `out0_3` of the input blocks; the invariant is the
    untouched rest (the scoped buffers no window stages and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: a dense layer's pallas_call, on a grid of 8 row blocks.
  Window 0 is a 2048-row block of the layer's input, windows 1 and 2 are the weight matrix and the bias row
  (one block each, the same at every grid point), window 3 is the 2048-row block of the layer's output.
  Stated at a parameter `V`, the contents of the core's buffers when the region is entered: what each window's
  block is (`iblk1`), what the body leaves in the output block as a function of the three input blocks (`out1_3`:
  the body's single whole-block store of its payload), the body's triple, the pipeline's proof data (`dat1`) and the
  body obligation at every grid point. Nothing here depends on the float instance.
-/
import proofs.«137523_j23356032156257_1_alg».proof.Proof.Gen.KernelIdeal.Launch
import proofs.«137523_j23356032156257_1_alg».proof.Proof.Gen.KernelIdeal.Skeleton
import proofs.«137523_j23356032156257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature window's staging buffer holds its row block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight window's staging buffer holds the whole weight matrix at every point: fetched at the first point, and
    its block index never moves afterwards. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias window's staging buffer holds the bias row at every point, for the same reason. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S2048x128 := Rect.unit (s := S2048x128) ![0, 0] S2048x128.size inb_S2048x128_S2048x128_0_0

/-! ## What the body leaves in the output block -/

/-- The output block after the body, from the three input blocks: one whole-block store of the body's payload
    (the body's arithmetic on the input block, the weights and the bias row). -/
def out1_3 (x0 : Vec F S2048x128 .f32) (x1 : Vec F S128x128 .f32) (x2 : Vec F S1x128 .f32) : Vec F S2048x128 .f32 :=
  View.canon [⟨r1_3, k1_pay1 (View.ld x0 r1_0) (View.ld x1 r1_1) (View.ld x2 r1_2)⟩]

/-- The one store covers the block. -/
theorem cover1_3 (p0 : Vec F S2048x128 .f32) (y : S2048x128.Idx) :
    ∃ pc ∈ ([⟨r1_3, p0⟩] : List (View.Piece (Elt F) S2048x128 .f32)), y ∈ pc.1.set :=
  View.cover_of_tiled [⟨r1_3, p0⟩] S2048x128.size (by rfl) y

/-! ## The body's triple -/

set_option maxHeartbeats 1000000 in
/-- The body on whole staging buffers — the inputs' at known contents, the output's at anything — runs to the
    continuation with the inputs as they were and the output at `out1_3` of the inputs. -/
theorem sound_kernel1 (c : Dev nD) (E : Set ℕ) (i : grid1.Coords) (arg1 : Memref sig .tc .vmem S2048x128 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S2048x128 .f32) (harg4 : arg4.IsWhole)
    (x0 : Vec F S2048x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this region on core `c`: the arrays as the region finds them; after the body at point `t` each
    input buffer still at its block and the output buffer at `out1_3` of the input blocks; the invariant is the
    untouched rest (the scoped buffers no window stages and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the program: a dense layer's pallas_call, on a grid of 8 row blocks.
  Window 0 is a 2048-row block of the layer's input, windows 1 and 2 are the weight matrix and the bias row
  (one block each, the same at every grid point), window 3 is the 2048-row block of the layer's output.
  Stated at a parameter `V`, the contents of the core's buffers when the region is entered: what each window's
  block is (`iblk2`), what the body leaves in the output block as a function of the three input blocks (`out2_3`:
  the body's single whole-block store of its payload), the body's triple, the pipeline's proof data (`dat2`) and the
  body obligation at every grid point. Nothing here depends on the float instance.
-/
import proofs.«137523_j23356032156257_1_alg».proof.Proof.Gen.KernelIdeal.Launch
import proofs.«137523_j23356032156257_1_alg».proof.Proof.Gen.KernelIdeal.Skeleton
import proofs.«137523_j23356032156257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's staging buffer holds its row block at every point, for any proof data whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight window's staging buffer holds the whole weight matrix at every point: fetched at the first point, and
    its block index never moves afterwards. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias window's staging buffer holds the bias row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_0 : Rect S2048x128 := Rect.unit (s := S2048x128) ![0, 0] S2048x128.size inb_S2048x128_S2048x128_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S2048x64 := Rect.unit (s := S2048x64) ![0, 0] S2048x64.size inb_S2048x64_S2048x64_0_0

/-! ## What the body leaves in the output block -/

/-- The output block after the body, from the three input blocks: one whole-block store of the body's payload
    (the body's arithmetic on the input block, the weights and the bias row). -/
def out2_3 (x0 : Vec F S2048x128 .f32) (x1 : Vec F S128x64 .f32) (x2 : Vec F S1x64 .f32) : Vec F S2048x64 .f32 :=
  View.canon [⟨r2_3, k2_pay1 (View.ld x0 r2_0) (View.ld x1 r2_1) (View.ld x2 r2_2)⟩]

/-- The one store covers the block. -/
theorem cover2_3 (p0 : Vec F S2048x64 .f32) (y : S2048x64.Idx) :
    ∃ pc ∈ ([⟨r2_3, p0⟩] : List (View.Piece (Elt F) S2048x64 .f32)), y ∈ pc.1.set :=
  View.cover_of_tiled [⟨r2_3, p0⟩] S2048x64.size (by rfl) y

/-! ## The body's triple -/

set_option maxHeartbeats 1000000 in
/-- The body on whole staging buffers — the inputs' at known contents, the output's at anything — runs to the
    continuation with the inputs as they were and the output at `out2_3` of the inputs. -/
theorem sound_kernel2 (c : Dev nD) (E : Set ℕ) (i : grid2.Coords) (arg1 : Memref sig .tc .vmem S2048x128 .f32) (harg1 : arg1.IsWhole)
    (arg2 : Memref sig .tc .vmem S128x64 .f32) (harg2 : arg2.IsWhole) (arg3 : Memref sig .tc .vmem S1x64 .f32) (harg3 : arg3.IsWhole)
    (arg4 : Memref sig .tc .vmem S2048x64 .f32) (harg4 : arg4.IsWhole)
    (x0 : Vec F S2048x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this region on core `c`: the arrays as the region finds them; after the body at point `t` each
    input buffer still at its block and the output buffer at `out2_3` of the input blocks; the invariant is the
    untouched rest (the scoped buffers no window stages and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of the program: the decoder's pallas_call on a 16 × 16 grid of output tiles.
  Windows 0 and 1 both read the embedding array `z` (16384 × 64): window 0 the 1024-row block of the tile's row index,
  window 1 the 1024-row block of the tile's column index; window 2 is the 1024 × 1024 output tile. Since two windows
  read one array, each holds it at half of the full share. Stated at a parameter `V`, the contents of the core's
  buffers when the region is entered: the windows' blocks (`iblk3`), what the body leaves in the output tile as a
  function of the two input blocks (`out3_2`), the body's triple, the proof data (`dat3`) and the body obligation at
  every grid point. Nothing here depends on the float instance.
-/
import proofs.«137523_j23356032156257_1_alg».proof.Proof.Gen.KernelIdeal.Launch
import proofs.«137523_j23356032156257_1_alg».proof.Proof.Gen.KernelIdeal.Skeleton
import proofs.«137523_j23356032156257_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-side window's staging buffer holds its block of `z` at every point: fetched when the tile's row index
    changes, and in place between. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The column-side window's staging buffer holds its block of `z` at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read or written whole -/

abbrev r3_0 : Rect S1024x64 := Rect.unit (s := S1024x64) ![0, 0] S1024x64.size inb_S1024x64_S1024x64_0_0
abbrev r3_2 : Rect S1024x1024 := Rect.unit (s := S1024x1024) ![0, 0] S1024x1024.size inb_S1024x1024_S1024x1024_0_0

/-! ## What the body leaves in the output tile -/

/-- The output tile after the body, from the two input blocks: one whole-tile store of the body's payload (the
    logistic function of the row block times the transposed column block). -/
def out3_2 (x0 : Vec F S1024x64 .f32) (x1 : Vec F S1024x64 .f32) : Vec F S1024x1024 .f32 :=
  View.canon [⟨r3_2, k3_pay1 (View.ld x0 r3_0) (View.ld x1 r3_0)⟩]

/-- The one store covers the tile. -/
theorem cover3_2 (p0 : Vec F S1024x1024 .f32) (y : S1024x1024.Idx) :
    ∃ pc ∈ ([⟨r3_2, p0⟩] : List (View.Piece (Elt F) S1024x1024 .f32)), y ∈ pc.1.set :=
  View.cover_of_tiled [⟨r3_2, p0⟩] S1024x1024.size (by rfl) y

/-! ## The body's triple -/

set_option maxHeartbeats 1000000 in
/-- The body on whole staging buffers — the inputs' at known contents, the output's at anything — runs to the
    continuation with the inputs as they were and the output at `out3_2` of the inputs. -/
theorem sound_kernel3 (c : Dev nD) (E : Set ℕ) (i : grid3.Coords) (arg2 : Memref sig .tc .vmem S1024x64 .f32) (harg2 : arg2.IsWhole)
    (arg3 : Memref sig .tc .vmem S1024x64 .f32) (harg3 : arg3.IsWhole) (arg4 : Memref sig .tc .vmem S1024x1024 .f32) (harg4 : arg4.IsWhole)
    (x0 : Vec F S1024x64 .f32) (x1 : Vec F S1024x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decoder_kernel i arg2 harg2 arg3 harg3 arg4 harg4) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this region on core `c`: the arrays as the region finds them; after the body at point `t` each
    input buffer still at its block and the output tile at `out3_2` of the input blocks; the invariant is the
    untouched rest; nothing owed; the two windows on `z` hold it at the two halves of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Vals.lean ====
/-
  The contents of the core's unscoped buffers at each boundary between two items of @main, from the launch to the
  return: a host stretch applies its operations (`StableHlo.after`); a kernel region changes only its output
  array, which ends at what the pipeline's write-backs leave there (`Dat.arrAt … N` of that region's proof data,
  taken at the contents the region was entered from). Seven items: stretch, layer 1, stretch, layer 2, stretch,
  layer 3, decoder.
-/
import proofs.«137523_j23356032156257_1_alg».proof.Proof.KI.Region0
import proofs.«137523_j23356032156257_1_alg».proof.Proof.KI.Region1
import proofs.«137523_j23356032156257_1_alg».proof.Proof.KI.Region2
import proofs.«137523_j23356032156257_1_alg».proof.Proof.KI.Region3
import proofs.«137523_j23356032156257_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev W0 (c : Dev nD) : Valuation τ sig (Elt F) := fun b => m (c, b)
/-- After the first host stretch (layer 1's entry). -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b
/-- After layer 1: its output array at what the pipeline leaves. -/
def W2 (c : Dev nD) : Valuation τ sig (Elt F) := Function.update (W1 m c) main_v30 ((dat0 (V1 m) c).arrAt 3 cfg0.N)
abbrev V2 : (c : Dev nD) → (b : Ref sig .tc) → Buf (Elt F) ((c : Thread nD τ).loc b) := fun c b => W2 m c b
/-- After the second host stretch (layer 2's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After layer 2. -/
def W4 (c : Dev nD) : Valuation τ sig (Elt F) := Function.update (W3 m c) main_v48 ((dat1 (V3 m) c).arrAt 3 cfg1.N)
abbrev V4 : (c : Dev nD) → (b : Ref sig .tc) → Buf (Elt F) ((c : Thread nD τ).loc b) := fun c b => W4 m c b
/-- After the third host stretch (layer 3's entry). -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- After layer 3 (the decoder's entry). -/
def W6 (c : Dev nD) : Valuation τ sig (Elt F) := Function.update (W5 m c) main_v66 ((dat2 (V5 m) c).arrAt 3 cfg2.N)
abbrev V6 : (c : Dev nD) → (b : Ref sig .tc) → Buf (Elt F) ((c : Thread nD τ).loc b) := fun c b => W6 m c b
/-- After the decoder: the return. -/
def W7 (c : Dev nD) : Valuation τ sig (Elt F) := Function.update (W6 m c) main_v67 ((dat3 (V6 m) c).arrAt 2 cfg3.N)
abbrev V7 : (c : Dev nD) → (b : Ref sig .tc) → Buf (Elt F) ((c : Thread nD τ).loc b) := fun c b => W7 m c b

/-! ## A region changes its output array only -/

theorem W2_out (c : Dev nD) : W2 m c main_v30 = (dat0 (V1 m) c).arrAt 3 cfg0.N := by
  unfold W2; exact Function.update_self ..
theorem W2_of_ne (c : Dev nD) (b : Ref sig .tc) (h : b ≠ main_v30) : W2 m c b = W1 m c b := by
  unfold W2; exact Function.update_of_ne (StableHlo.devRef_ne_of_ne h) ..
theorem W4_out (c : Dev nD) : W4 m c main_v48 = (dat1 (V3 m) c).arrAt 3 cfg1.N := by
  unfold W4; exact Function.update_self ..
theorem W4_of_ne (c : Dev nD) (b : Ref sig .tc) (h : b ≠ main_v48) : W4 m c b = W3 m c b := by
  unfold W4; exact Function.update_of_ne (StableHlo.devRef_ne_of_ne h) ..
theorem W6_out (c : Dev nD) : W6 m c main_v66 = (dat2 (V5 m) c).arrAt 3 cfg2.N := by
  unfold W6; exact Function.update_self ..
theorem W6_of_ne (c : Dev nD) (b : Ref sig .tc) (h : b ≠ main_v66) : W6 m c b = W5 m c b := by
  unfold W6; exact Function.update_of_ne (StableHlo.devRef_ne_of_ne h) ..
theorem W7_out (c : Dev nD) : W7 m c main_v67 = (dat3 (V6 m) c).arrAt 2 cfg3.N := by
  unfold W7; exact Function.update_self ..
theorem W7_of_ne (c : Dev nD) (b : Ref sig .tc) (h : b ≠ main_v67) : W7 m c b = W6 m c b := by
  unfold W7; exact Function.update_of_ne (StableHlo.devRef_ne_of_ne h) ..

/-! ## A host stretch changes only what its operations write -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- A buffer no item writes reaches the return as launched. -/
theorem W7_kept (c : Dev nD) (r : Ref sig .tc) (h0 : r ∉ hostOps0_W) (h1 : r ∉ hostOps1_W) (h2 : r ∉ hostOps2_W)
    (h30 : r ≠ main_v30) (h48 : r ≠ main_v48) (h66 : r ≠ main_v66) (h67 : r ≠ main_v67) : W7 m c r = m ((c : Thread nD τ).loc r) :=
  (W7_of_ne m c r h67).trans <| (W6_of_ne m c r h66).trans <| (W5_of m c r h2).trans <| (W4_of_ne m c r h48).trans <|
    (W3_of m c r h1).trans <| (W2_of_ne m c r h30).trans <| (W1_of m c r h0).trans rfl

end Cert.KernelIdeal.Hand

end
-- ==== Proof.KI.Family.lean ====
/-
  The family of the four pipelines' proof data, each taken at the contents its region is entered from, and the thread
  state a core carries between two items of @main: every unscoped buffer at the boundary's contents, the generator
  register at some state, and the fact that the core owes nothing.
-/
import proofs.«137523_j23356032156257_1_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the fact
    that it owes nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Reg0.lean ====
/-
  Region 0 as a segment of @main. Entered holding every unscoped buffer at the contents before it, the region takes
  its four arrays out of them (three inputs and the output, distinct buffers, each whole), runs the pipeline over the
  region's proof data, and puts the arrays back: an input array as it was, the output array at what the write-backs
  left there. Every other buffer is untouched.
-/
import proofs.«137523_j23356032156257_1_alg».proof.Proof.KI.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's exit each of its arrays holds what the pipeline leaves — an input array what it held, the output
    array its write-backs — and every other buffer what it held at the entry. -/
theorem hF0 (c : Dev nD) (w : Fin cfg0.W) : (dat0 (V1 m) c).arrAt w cfg0.N = V2 m c (Pipeline.arrRef spec0 w) :=
  match w with
  | ⟨0, _⟩ => ((dat0 (V1 m) c).arrAt_in 0 rfl _).trans ((A_eq0 (V1 m) c 0).trans (W2_of_ne m c _ (by decide)).symm)
  | ⟨1, _⟩ => ((dat0 (V1 m) c).arrAt_in 1 rfl _).trans ((A_eq0 (V1 m) c 1).trans (W2_of_ne m c _ (by decide)).symm)
  | ⟨2, _⟩ => ((dat0 (V1 m) c).arrAt_in 2 rfl _).trans ((A_eq0 (V1 m) c 2).trans (W2_of_ne m c _ (by decide)).symm)
  | ⟨3, _⟩ => (W2_out m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

-- unification of a library lemma stated over the pinned configuration with the printed one unfolds plain definitions in a
-- metavariable's type
set_option backward.isDefEq.respectTransparency.types false in
/-- Region 0 over the thread state: entered from every unscoped buffer at `W1`, left at `W2`. Its arrays are split
    out of the unscoped buffers at the entry and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1 as a segment of @main. Entered holding every unscoped buffer at the contents before it, the region takes
  its four arrays out of them (three inputs and the output, distinct buffers, each whole), runs the pipeline over the
  region's proof data, and puts the arrays back: an input array as it was, the output array at what the write-backs
  left there. Every other buffer is untouched.
-/
import proofs.«137523_j23356032156257_1_alg».proof.Proof.KI.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 1's exit each of its arrays holds what the pipeline leaves — an input array what it held, the output
    array its write-backs — and every other buffer what it held at the entry. -/
theorem hF1 (c : Dev nD) (w : Fin cfg1.W) : (dat1 (V3 m) c).arrAt w cfg1.N = V4 m c (Pipeline.arrRef spec1 w) :=
  match w with
  | ⟨0, _⟩ => ((dat1 (V3 m) c).arrAt_in 0 rfl _).trans ((A_eq1 (V3 m) c 0).trans (W4_of_ne m c _ (by decide)).symm)
  | ⟨1, _⟩ => ((dat1 (V3 m) c).arrAt_in 1 rfl _).trans ((A_eq1 (V3 m) c 1).trans (W4_of_ne m c _ (by decide)).symm)
  | ⟨2, _⟩ => ((dat1 (V3 m) c).arrAt_in 2 rfl _).trans ((A_eq1 (V3 m) c 2).trans (W4_of_ne m c _ (by decide)).symm)
  | ⟨3, _⟩ => (W4_out m c).symm
theorem hrest1 (c : Dev nD) : ∀ b, b ∉ Finset.univ.image (Pipeline.arrRef spec1) → V4 m c b = V3 m c b :=
  fun b hb => W4_of_ne m c b fun e => hb (Finset.mem_image.mpr ⟨3, Finset.mem_univ _, e.symm⟩)

-- unification of a library lemma stated over the pinned configuration with the printed one unfolds plain definitions in a
-- metavariable's type
set_option backward.isDefEq.respectTransparency.types false in
/-- Region 1 over the thread state: entered from every unscoped buffer at `W3`, left at `W4`. Its arrays are split
    out of the unscoped buffers at the entry and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2 as a segment of @main. Entered holding every unscoped buffer at the contents before it, the region takes
  its four arrays out of them (three inputs and the output, distinct buffers, each whole), runs the pipeline over the
  region's proof data, and puts the arrays back: an input array as it was, the output array at what the write-backs
  left there. Every other buffer is untouched.
-/
import proofs.«137523_j23356032156257_1_alg».proof.Proof.KI.Family
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 2's exit each of its arrays holds what the pipeline leaves — an input array what it held, the output
    array its write-backs — and every other buffer what it held at the entry. -/
theorem hF2 (c : Dev nD) (w : Fin cfg2.W) : (dat2 (V5 m) c).arrAt w cfg2.N = V6 m c (Pipeline.arrRef spec2 w) :=
  match w with
  | ⟨0, _⟩ => ((dat2 (V5 m) c).arrAt_in 0 rfl _).trans ((A_eq2 (V5 m) c 0).trans (W6_of_ne m c _ (by decide)).symm)
  | ⟨1, _⟩ => ((dat2 (V5 m) c).arrAt_in 1 rfl _).trans ((A_eq2 (V5 m) c 1).trans (W6_of_ne m c _ (by decide)).symm)
  | ⟨2, _⟩ => ((dat2 (V5 m) c).arrAt_in 2 rfl _).trans ((A_eq2 (V5 m) c 2).trans (W6_of_ne m c _ (by decide)).symm)
  | ⟨3, _⟩ => (W6_out m c).symm
theorem hrest2 (c : Dev nD) : ∀ b, b ∉ Finset.univ.image (Pipeline.arrRef spec2) → V6 m c b = V5 m c b :=
  fun b hb => W6_of_ne m c b fun e => hb (Finset.mem_image.mpr ⟨3, Finset.mem_univ _, e.symm⟩)

-- unification of a library lemma stated over the pinned configuration with the printed one unfolds plain definitions in a
-- metavariable's type
set_option backward.isDefEq.respectTransparency.types false in
/-- Region 2 over the thread state: entered from every unscoped buffer at `W5`, left at `W6`. Its arrays are split
    out of the unscoped buffers at the entry and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Shared3.lean ====
/-
  The decoder's arrays, with one array behind two windows. The embedding array `z` is read by window 0 and by
  window 1, so the pipeline holds it twice, at the two halves of the full share; the output array is held whole.
  A core's unscoped buffers therefore split into: `z` at the left half, `z` at the right half, the output at the full
  share, and the rest; and they join again the same way once the output holds what the pipeline left there.
-/
import proofs.«137523_j23356032156257_1_alg».proof.Proof.KI.Region3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem arrRef3_0 : Pipeline.arrRef spec3 0 = main_v66 := rfl
theorem arrRef3_1 : Pipeline.arrRef spec3 1 = main_v66 := rfl
theorem arrRef3_2 : Pipeline.arrRef spec3 2 = main_v67 := rfl

theorem image_arrRef3 : Finset.univ.image (Pipeline.arrRef spec3) = {main_v66, main_v67} := by decide

/-- The pipeline's arrays at contents `G`, window by window. -/
theorem arrays3_eq (c : Dev nD) (G : (w : Fin cfg3.W) → Buf (Elt F) ((cfg3.win w).arr.view.loc (c.tc : Thread nD τ))) :
    ((dat3 V c).arrays G : sProp 𝕄) = iprop((((c.tc : Thread nD τ).loc main_v66) ↦{fullShare.left} G 0)
      ∗ (((c.tc : Thread nD τ).loc main_v66) ↦{fullShare.right} G 1) ∗ (((c.tc : Thread nD τ).loc main_v67) ↦{fullShare} G 2)) := by
  unfold Dat.arrays
  rw [bigSep_W3, show (cfg3.win 0).arr.view.set = Finset.univ from (arr_whole3 0).set_eq_univ,
    show (cfg3.win 2).arr.view.set = Finset.univ from (arr_whole3 2).set_eq_univ]
  rfl

/-- The two distinct buffers behind the decoder's three windows, each whole at the full share. -/
theorem arrBufs3_eq (c : Dev nD) (Vc : (b : Ref sig .tc) → Buf (Elt F) ((c.tc : Thread nD τ).loc b)) :
    (Pipeline.arrBufs (cfgs 3).spec c Vc : sProp 𝕄)
      = iprop((((c.tc : Thread nD τ).loc main_v66) ↦{fullShare} Vc main_v66) ∗ (((c.tc : Thread nD τ).loc main_v67) ↦{fullShare} Vc main_v67)) := by
  unfold Pipeline.arrBufs
  rw [show Finset.univ.image (Pipeline.arrRef (cfgs 3).spec) = {main_v66, main_v67} from image_arrRef3,
    bigSep_insert (by decide), bigSep_singleton]
  rfl

/-- ENTRY: a core's unscoped buffers at contents `Vc` are the decoder's arrays at those contents — the embedding
    array split into its two halves, one per window on it — and the rest. -/
theorem entry3 (c : Dev nD) (Vc : (b : Ref sig .tc) → Buf (Elt F) ((c.tc : Thread nD τ).loc b)) :
    (unscopedBufs c Vc : sProp 𝕄) ⊢ iprop((dat3 V c).arrays (fun w => Vc (Pipeline.arrRef spec3 w)) ∗ Pipeline.unscopedRest spec3 c Vc) := by
  rw [Pipeline.unscopedBufs_split₀ (Ix := Unit) (Name := ℕ) (U := UR sig nD τ) (Lvl := ℕ) cfgs 3 winFacts₀3.arr_unscoped c Vc,
    arrays3_eq, arrBufs3_eq]
  iintro ⟨⟨Hz, Ho⟩, Hr⟩
  ihave Hz := (pointsTo_share (PosShare.mem_left_op_right fullShare)).1 $$ Hz
  icases Hz with ⟨Hz1, Hz2⟩
  isplitr [Hr]
  · isplitl [Hz1]; · iexact Hz1
    isplitl [Hz2]; · iexact Hz2
    iexact Ho
  · iexact Hr

/-- EXIT: the decoder's arrays at contents `G` — the same contents behind both windows on the embedding array — and
    the rest at `Vc` are the core's unscoped buffers at any contents `Vc'` that has the arrays at `G` and agrees
    with `Vc` off them: the two halves of the embedding array join again. -/
theorem exit3 (c : Dev nD) (Vc Vc' : (b : Ref sig .tc) → Buf (Elt F) ((c.tc : Thread nD τ).loc b))
    (G : (w : Fin cfg3.W) → Buf (Elt F) ((cfg3.win w).arr.view.loc (c.tc : Thread nD τ)))
    (hG0 : G 0 = Vc' main_v66) (hG1 : G 1 = Vc' main_v66) (hG2 : G 2 = Vc' main_v67)
    (hrest : ∀ b, b ∉ Finset.univ.image (Pipeline.arrRef spec3) → Vc' b = Vc b) :
    iprop((dat3 V c).arrays G ∗ Pipeline.unscopedRest spec3 c Vc) ⊢ (unscopedBufs c Vc' : sProp 𝕄) := by
  rw [Pipeline.unscopedBufs_split₀ (Ix := Unit) (Name := ℕ) (U := UR sig nD τ) (Lvl := ℕ) cfgs 3 winFacts₀3.arr_unscoped c Vc',
    arrays3_eq, arrBufs3_eq, hG0, hG1, hG2]
  iintro ⟨⟨H0, H1, H2⟩, Hr⟩
  isplitr [Hr]
  · isplitr [H2]
    · iapply (pointsTo_share (PosShare.mem_left_op_right fullShare)).2
      isplitl [H0]; · iexact H0
      iexact H1
    · iexact H2
  · iapply (show (Pipeline.unscopedRest spec3 c Vc : sProp 𝕄) ⊢ Pipeline.unscopedRest (cfgs 3).spec c Vc' from
      Entails.of_eq (by unfold Pipeline.unscopedRest; exact bigSep_congr fun b hb => by rw [hrest b (Finset.mem_sdiff.mp hb).2]))
    iexact Hr

end Cert.KernelIdeal.Hand

end
-- ==== Proof.KI.Reg3.lean ====
/-
  The decoder's region as a segment of @main. Its two input windows read one array, the embeddings: the region takes
  that buffer out of the unscoped buffers once and holds it as two half shares, one behind each window, beside the
  output array held whole; at the exit the halves join again and the output holds what the write-backs left there.
-/
import proofs.«137523_j23356032156257_1_alg».proof.Proof.KI.Family
import proofs.«137523_j23356032156257_1_alg».proof.Proof.KI.Shared3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The decoder's arrays at its exit: the embedding array as entered (behind both input windows), the output at its
    write-backs; every other buffer as entered. -/
theorem hF3_0 (c : Dev nD) : (dat3 (V6 m) c).arrAt 0 cfg3.N = V7 m c main_v66 :=
  ((dat3 (V6 m) c).arrAt_in 0 rfl _).trans ((A_eq3 (V6 m) c 0).trans (W7_of_ne m c _ (by decide)).symm)
theorem hF3_1 (c : Dev nD) : (dat3 (V6 m) c).arrAt 1 cfg3.N = V7 m c main_v66 :=
  ((dat3 (V6 m) c).arrAt_in 1 rfl _).trans ((A_eq3 (V6 m) c 1).trans (W7_of_ne m c _ (by decide)).symm)
theorem hF3_2 (c : Dev nD) : (dat3 (V6 m) c).arrAt 2 cfg3.N = V7 m c main_v67 := (W7_out m c).symm
theorem hrest3 (c : Dev nD) : ∀ b, b ∉ Finset.univ.image (Pipeline.arrRef spec3) → V7 m c b = V6 m c b :=
  fun b hb => W7_of_ne m c b fun e => hb (Finset.mem_image.mpr ⟨2, Finset.mem_univ _, e.symm⟩)

-- unification of a library lemma stated over the pinned configuration with the printed one unfolds plain definitions in a
-- metavariable's type
set_option backward.isDefEq.respectTransparency.types false in
/-- The decoder's region over the thread state: entered from every unscoped buffer at `W6`, left at `W7`. The embedding
    array goes in split into two half shares, one behind each input window, and the halves join again at the exit. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit : (unscopedBufs c (V6 m c) : sProp 𝕄)
        ⊢ iprop((pdats m 3 c).arrays ((pdats m 3 c).arrAt · 0)
          ∗ Pipeline.unscopedRest (Ix := Unit) (Name := ℕ) (U := UR sig nD τ) (Lvl := ℕ) spec3 c (V6 m c)) :=
      entry3 (V6 m) c (V6 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V6 m c))
        ⊢ (unscopedBufs c (V7 m c) : sProp 𝕄) :=
      exit3 (V6 m) c (V6 m c) (V7 m c) ((dat3 (V6 m) c).arrAt · cfg3.N) (hF3_0 m c) (hF3_1 m c) (hF3_2 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
/-
  The run of the whole program. @main is seven items: three host stretches and four kernel regions. Between two
  items the core holds every unscoped buffer at the boundary's contents, beside its generator register and the fact
  that it owes nothing. A host stretch takes the contents to the result of its operations; a kernel region takes its
  arrays out, runs its pipeline, and puts them back with the output array at what the write-backs left. The launch over
  these seven segments gives: every weakly fair execution terminates, faulting nowhere, and at the end every unscoped
  buffer holds the last boundary's contents `W7`.
-/
import proofs.«137523_j23356032156257_1_alg».proof.Proof.KI.Reg0
import proofs.«137523_j23356032156257_1_alg».proof.Proof.KI.Reg1
import proofs.«137523_j23356032156257_1_alg».proof.Proof.KI.Reg2
import proofs.«137523_j23356032156257_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m) ]

-- the launch theorem's implicit arguments are found by unifying its conclusion with this one, which takes unfolding plain
-- definitions in a metavariable's type
set_option backward.isDefEq.respectTransparency.types false in
/-- THE RUN: from any memory with zero counters, every weakly fair execution of @main terminates, nothing faulting,
    and every final memory holds every unscoped buffer at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.KI.Frame.lean ====
/-
  What the run says about the claim's buffers. No item of @main writes an argument array — no host stretch lists one
  among the buffers it writes, and a region changes only its output array — so each argument ends at its launch
  contents: the frame. The two results end at the last boundary's contents: the embeddings at what the third layer's
  region left, the reconstruction at what the decoder's region left.
-/
import proofs.«137523_j23356032156257_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: every weakly fair execution terminates, faulting nowhere, and the nine argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W7_kept m c main_arg0 (by decide) (by decide) (by decide) (by decide) (by decide) (by decide) (by decide)),
    (h c _ (mem_uc main_arg1 (by decide))).trans (W7_kept m c main_arg1 (by decide) (by decide) (by decide) (by decide) (by decide) (by decide) (by decide)),
    (h c _ (mem_uc main_arg2 (by decide))).trans (W7_kept m c main_arg2 (by decide) (by decide) (by decide) (by decide) (by decide) (by decide) (by decide)),
    (h c _ (mem_uc main_arg3 (by decide))).trans (W7_kept m c main_arg3 (by decide) (by decide) (by decide) (by decide) (by decide) (by decide) (by decide)),
    (h c _ (mem_uc main_arg4 (by decide))).trans (W7_kept m c main_arg4 (by decide) (by decide) (by decide) (by decide) (by decide) (by decide) (by decide)),
    (h c _ (mem_uc main_arg5 (by decide))).trans (W7_kept m c main_arg5 (by decide) (by decide) (by decide) (by decide) (by decide) (by decide) (by decide)),
    (h c _ (mem_uc main_arg6 (by decide))).trans (W7_kept m c main_arg6 (by decide) (by decide) (by decide) (by decide) (by decide) (by decide) (by decide)),
    (h c _ (mem_uc main_arg7 (by decide))).trans (W7_kept m c main_arg7 (by decide) (by decide) (by decide) (by decide) (by decide) (by decide) (by decide)),
    (h c _ (mem_uc main_arg8 (by decide))).trans (W7_kept m c main_arg8 (by decide) (by decide) (by decide) (by decide) (by decide) (by decide) (by decide))⟩) (run_all m ρ)

/-- THE RESULTS: besides the frame, the reconstruction's and the embeddings' buffers end at the last boundary's
    contents. -/
theorem run_values : θ_run defs (onTc (τ := τ) (main (F := F))) ⟨m, fun _ => 0, ρ⟩ (fun r => ∀ c : Dev nD,
      r.2.mem ((c.tc : Thread nD τ).loc main_v67) = W7 m c main_v67
      ∧ r.2.mem ((c.tc : Thread nD τ).loc main_v66) = W7 m c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v67 (by decide)), h c _ (mem_uc main_v66 (by decide)),
    (h c _ (mem_uc main_arg0 (by decide))).trans (W7_kept m c main_arg0 (by decide) (by decide) (by decide) (by decide) (by decide) (by decide) (by decide)),
    (h c _ (mem_uc main_arg1 (by decide))).trans (W7_kept m c main_arg1 (by decide) (by decide) (by decide) (by decide) (by decide) (by decide) (by decide)),
    (h c _ (mem_uc main_arg2 (by decide))).trans (W7_kept m c main_arg2 (by decide) (by decide) (by decide) (by decide) (by decide) (by decide) (by decide)),
    (h c _ (mem_uc main_arg3 (by decide))).trans (W7_kept m c main_arg3 (by decide) (by decide) (by decide) (by decide) (by decide) (by decide) (by decide)),
    (h c _ (mem_uc main_arg4 (by decide))).trans (W7_kept m c main_arg4 (by decide) (by decide) (by decide) (by decide) (by decide) (by decide) (by decide)),
    (h c _ (mem_uc main_arg5 (by decide))).trans (W7_kept m c main_arg5 (by decide) (by decide) (by decide) (by decide) (by decide) (by decide) (by decide)),
    (h c _ (mem_uc main_arg6 (by decide))).trans (W7_kept m c main_arg6 (by decide) (by decide) (by decide) (by decide) (by decide) (by decide) (by decide)),
    (h c _ (mem_uc main_arg7 (by decide))).trans (W7_kept m c main_arg7 (by decide) (by decide) (by decide) (by decide) (by decide) (by decide) (by decide)),
    (h c _ (mem_uc main_arg8 (by decide))).trans (W7_kept m c main_arg8 (by decide) (by decide) (by decide) (by decide) (by decide) (by decide) (by decide))⟩) (run_all m ρ)

end Cert.KernelIdeal.Hand

end
-- ==== Proof.LibDense.lean ====
/-
  Dense layers over the extended reals, index by index.

  A matrix is a function of a rank-2 index into the extended reals. `mm A B` is the textbook product: entry (a, b) is
  the sum over the shared coordinate c of A (a, c) · B (c, b). `biasRelu z A β` adds the entry β c to every row of A at
  column c and takes the larger of the result and z (the rectifier when z is zero). `plusScalar X s` adds one number to
  every entry. `rowBlock R t A` is the block of R consecutive rows of A that starts at row t · R, all columns kept.

  Facts proved here:
  * the kernel's matrix product into a zero accumulator and the host's plain dot_general are both `mm`, at the exact
    arithmetic of the extended reals (the sum over the contracted coordinate written over its range of numbers);
  * each of the three layers acts row by row, so it commutes with taking a block of rows: a layer of a row block is the
    row block of the layer. That is what lets a product computed block of rows by block of rows be read as ONE product;
  * every row of a matrix of M rows lies in exactly the block t = row / R when R divides the rows evenly.
-/
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.Dense

open Idealize.ShloMosaic Idealize.ShloMosaic.ValueIdx

/-- A matrix of extended reals with `m` rows and `n` columns. -/
abbrev Mat (m n : Nat) := FVec Ideal ⟨2, ![m, n]⟩ .f32

variable {m k n : Nat}

/-- The product of an m×k and a k×n matrix: entry (a, b) is ∑_c A (a, c) · B (c, b). -/
def mm (A : Mat m k) (B : Mat k n) : Mat m n :=
  fun i => ∑ c : Fin k, A (ix2 (i 0 : Fin m) c) * B (ix2 c (i 1 : Fin n))

theorem mm_apply (A : Mat m k) (B : Mat k n) (a : Fin m) (b : Fin n) :
    mm A B (ix2 a b) = ∑ c : Fin k, A (ix2 a c) * B (ix2 c b) := rfl

/-- Row a of A, shifted by β along the columns, then bounded below by z. -/
def biasRelu (z : Ideal .f32) (A : Mat m k) (β : Fin k → Ideal .f32) : Mat m k :=
  fun j => max (A j + β (j 1 : Fin k)) z

/-- One number added to every entry. -/
def plusScalar (X : Mat m n) (s : Ideal .f32) : Mat m n := fun i => X i + s

/-- The host's plain dot_general is the product, entry by entry. -/
theorem dotGeneral_plain_eq_mm {φ₁ φ₂ : FTy} (prec : Option ContractPrecision)
    (A : FVec Ideal ⟨2, ![m, k]⟩ φ₁) (B : FVec Ideal ⟨2, ![k, n]⟩ φ₂) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The kernel's plain matrix product accumulated into zeros is the product, entry by entry. -/
theorem matmul_plain_zero_eq_mm {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32) = mm A B :=
  (matmul_zero_eq_dotGeneral _ _ _ _).trans (dotGeneral_plain_eq_mm _ _ _)

/-! ## The kernel's spellings of the layers -/

/-- A one-row matrix laid along every row, read at an entry: the row's entry in that column. -/
theorem broadcastTo_oneRow_apply {α : Type} (x : (⟨2, ![1, n]⟩ : Shape).Idx → α)
    (hb : (⟨2, ![1, n]⟩ : Shape).Broadcasts ⟨2, ![m, n]⟩) (j : (⟨2, ![m, n]⟩ : Shape).Idx) :
    broadcastTo ⟨2, ![m, n]⟩ x hb j = x (ix2 (0 : Fin 1) (j 1 : Fin n)) := by
  refine broadcastTo_apply x hb j (ix2 (0 : Fin 1) (j 1 : Fin n)) ?_
  intro a
  match a with
  | ⟨0, _⟩ => rfl
  | ⟨1, _⟩ =>
    show (j 1).val = if n = 1 then 0 else (j 1).val
    split
    · have := (j 1).isLt; have e : (j 1).val < n := this; omega
    · rfl

/-- A vector of `n` entries reshaped to one row, read at an entry: the vector's entry of that column. -/
theorem shapeCast_row_apply {α : Type} (x : (⟨1, ![n]⟩ : Shape).Idx → α)
    (h : (⟨1, ![n]⟩ : Shape).ShapeCasts ⟨2, ![1, n]⟩) (b : Fin n) :
    shapeCast ⟨2, ![1, n]⟩ x h (ix2 (0 : Fin 1) b) = x (ix1 b) :=
  shapeCast_apply x h (ix2 (0 : Fin 1) b) (ix1 b) (by
    rw [Shape.rowMajor_val_one, Shape.rowMajor_val_two]
    show b.val = 0 * n + b.val
    omega)

/-- A block plus a one-row bias laid along its rows, bounded below by the splat of one word, is `biasRelu`. -/
theorem biasRelu_of_broadcast (A : Mat m k) (v : FVec Ideal ⟨2, ![1, k]⟩ .f32)
    (hb : (⟨2, ![1, k]⟩ : Shape).Broadcasts ⟨2, ![m, k]⟩) (z : BitVec 32) :
    maximumf (addf A (broadcastTo ⟨2, ![m, k]⟩ v hb)) (broadcast ⟨2, ![m, k]⟩ (Scalar.ofBits (F := Ideal) .f32 z))
      = biasRelu (Ideal.ofBits .f32 z) A (fun c => v (ix2 (0 : Fin 1) c)) := by
  funext j
  show max (A j + broadcastTo ⟨2, ![m, k]⟩ v hb j) _ = max (A j + v (ix2 (0 : Fin 1) (j 1 : Fin k))) _
  rw [broadcastTo_oneRow_apply]
  rfl

/-- A one-column block plus the splat of a one-entry matrix along its rows is `plusScalar`. -/
theorem plusScalar_of_broadcast (X : Mat m 1) (v : FVec Ideal ⟨2, ![1, 1]⟩ .f32)
    (hb : (⟨2, ![1, 1]⟩ : Shape).Broadcasts ⟨2, ![m, 1]⟩) :
    addf X (broadcastTo ⟨2, ![m, 1]⟩ v hb) = plusScalar X (v (ix2 (0 : Fin 1) (0 : Fin 1))) := by
  funext j
  show X j + broadcastTo ⟨2, ![m, 1]⟩ v hb j = X j + v (ix2 (0 : Fin 1) (0 : Fin 1))
  rw [broadcastTo_oneRow_apply]
  have e : (j 1 : Fin 1) = (0 : Fin 1) :=
    Fin.ext (by have := (j 1).isLt; have e' : (j 1).val < 1 := this; show (j 1).val = 0; omega)
  rw [e]

/-! ## Blocks of rows -/

/-- Rows t·R … t·R + R − 1 of a matrix of M rows (they exist: `h`), every column. -/
def rowBlock {M : Nat} (R t : Nat) (h : t * R + R ≤ M) (A : Mat M k) : Mat R k :=
  fun y => A (ix2 (⟨t * R + (y 0).val, by have := (y 0).isLt; have e : (y 0).val < R := this; omega⟩ : Fin M) (y 1 : Fin k))

variable {M : Nat} (R t : Nat) (h : t * R + R ≤ M)

/-- The product acts row by row: the product of a block of rows is that block of rows of the product. -/
theorem mm_rowBlock (A : Mat M k) (B : Mat k n) : mm (rowBlock R t h A) B = rowBlock R t h (mm A B) := rfl

theorem biasRelu_rowBlock (z : Ideal .f32) (A : Mat M k) (β : Fin k → Ideal .f32) :
    biasRelu z (rowBlock R t h A) β = rowBlock R t h (biasRelu z A β) := rfl

theorem plusScalar_rowBlock (X : Mat M n) (s : Ideal .f32) :
    plusScalar (rowBlock R t h X) s = rowBlock R t h (plusScalar X s) := rfl

end Cert.Dense

end
-- ==== Proof.KI.Value0.lean ====
/-
  Layer 1 on the whole array. The pallas_call computes, row block by row block, `max(x · W + b, 0)`; the blocks tile
  the rows, so after the last grid point the output array is that function of the three whole input arrays. It is
  stated here in the host's own operations (a general dot product contracting the shared axis, the bias row broadcast
  down the rows, the maximum with zero), which is how the reference program spells the same layer.

  The proof: both the body's payload on a block and the host's spelling on whole arrays are the textbook product, the
  bias row added to every row, and the larger of that and zero; these three act row by row, so the payload of a block of
  rows is that block of rows of the whole result; the input's and the output's blocks at grid point `t` are rows
  `2048 t … 2048 t + 2047`, the weights' and the bias row's blocks are the whole arrays; the eight blocks cover the rows.
-/
import proofs.«137523_j23356032156257_1_alg».proof.Proof.KI.Region0
import proofs.«137523_j23356032156257_1_alg».proof.Proof.Gen.ReferenceIdeal
import proofs.«137523_j23356032156257_1_alg».proof.Proof.LibDense
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Dense

/-- One dense layer with its clamp at zero, on whole arrays, in the host's operations. -/
def Lin0 (x : FVec Ideal S16384x256 .f32) (w : FVec Ideal S256x128 .f32) (b : FVec Ideal S1x128 .f32) : FVec Ideal S16384x128 .f32 :=
  maximumf (addf (Host.dotGeneral Cert.ReferenceIdeal.dot_S16384x256_S256x128_S16384x128_1_0_0_1_n_n none x w)
      (broadcastInDim S16384x128 ![0, 1] Cert.ReferenceIdeal.Facts₀.bcast_S1x128_S16384x128_0_1 b))
    (broadcastInDim S16384x128 ![] Cert.ReferenceIdeal.Facts₀.bcast_S_S16384x128 (constant (F := Ideal) S_ .f32 0x00000000#32))

/-- The body's payload on a block: the block times the weights, the bias row added to every row, the larger of that
    and zero. -/
theorem pay0_eq (x : Vec Ideal S2048x256 .f32) (w : Vec Ideal S256x128 .f32) (b : Vec Ideal S1x128 .f32) :
    k0_pay1 x w b = biasRelu (Ideal.ofBits .f32 0x00000000#32) (mm x w) (fun q => b (ix2 (0 : Fin 1) q)) := by
  unfold k0_pay1
  dsimp only
  rw [shapeCast_self, shapeCast_self]
  show maximumf (addf (matmul (DotDims.plain 2048 256 128) none x w (constant ⟨2, ![2048, 128]⟩ .f32 0x00000000#32))
      (broadcastTo ⟨2, ![2048, 128]⟩ b broadcasts_S1x128_S2048x128)) (broadcast ⟨2, ![2048, 128]⟩ (Scalar.ofBits (F := Ideal) .f32 0x00000000#32)) = _
  rw [matmul_plain_zero_eq_mm, biasRelu_of_broadcast]

/-- The layer on whole arrays, spelled in the host's operations, is the same three steps. -/
theorem Lin0_eq (X : FVec Ideal S16384x256 .f32) (W : FVec Ideal S256x128 .f32) (B : FVec Ideal S1x128 .f32) :
    Lin0 X W B = biasRelu (Ideal.ofBits .f32 0x00000000#32) (mm X W) (fun q => B (ix2 (0 : Fin 1) q)) := by
  unfold Lin0
  have e : Host.dotGeneral Cert.ReferenceIdeal.dot_S16384x256_S256x128_S16384x128_1_0_0_1_n_n none X W = mm X W :=
    dotGeneral_plain_eq_mm (m := 16384) (k := 256) (n := 128) none X W
  rw [e]
  funext j
  show max (mm X W j + broadcastInDim S16384x128 ![0, 1] _ B j) (Ideal.ofBits .f32 0x00000000#32) = max (mm X W j + B (ix2 (0 : Fin 1) (j 1 : Fin 128))) _
  rw [broadcastInDim_apply ![0, 1] _ B j (ix2 (0 : Fin 1) (j 1 : Fin 128)) (fun a => by
    match a with
    | ⟨0, _⟩ => rfl
    | ⟨1, _⟩ => rfl)]

/-- The layer acts row by row: on the block of rows `2048 t … 2048 t + 2047` of the input, with the whole weights and
    bias row, the body's payload is that block of rows of the layer's result. -/
theorem block_law0 (X : FVec Ideal S16384x256 .f32) (W : FVec Ideal S256x128 .f32) (B : FVec Ideal S1x128 .f32)
    (t : Nat) (ht : t * 2048 + 2048 ≤ 16384)
    (x : Vec Ideal S2048x256 .f32) (w : Vec Ideal S256x128 .f32) (b : Vec Ideal S1x128 .f32)
    (hx : x = rowBlock 2048 t ht X) (hw : w = W) (hb : b = B) :
    k0_pay1 x w b = rowBlock 2048 t ht (Lin0 X W B) := by
  subst hx hw hb
  rw [pay0_eq, Lin0_eq, mm_rowBlock, biasRelu_rowBlock]

/-! ## The windows' blocks as parts of the arrays -/

theorem hz0 : (![0, 0] : Fin 2 → Nat) = fun _ => 0 := funext fun a => by fin_cases a <;> rfl

/-- The printed index maps, decided over the grid: the input's and the output's block index is the grid point on the
    rows and 0 on the columns; the weights' and the bias row's block index is 0 on both axes. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The input window's block at point `t` is rows `2048 t … 2048 t + 2047` of the input array. -/
theorem iblk0_0_eq (c : Dev nD) (t : Fin cfg0.N) (ht : t.val * 2048 + 2048 ≤ 16384) :
    (iblk0 V c 0 t : Vec Ideal S2048x256 .f32) = rowBlock 2048 t.val ht (V c main_v28) := by
  obtain ⟨e0, e1, -⟩ := idx0 t
  funext y
  unfold iblk0
  rw [View.read_apply]
  show (V c main_v28 : S16384x256.Idx → Ideal .f32) (((cfg0.win 0).blk t).view.emb y)
    = (V c main_v28 : S16384x256.Idx → Ideal .f32) (ix2 ⟨t.val * 2048 + (y 0).val, _⟩ (y 1 : Fin 256))
  refine congrArg _ (funext fun a => Fin.ext ?_)
  match a with
  | ⟨0, _⟩ => show win0_0.index t (0 : Fin 2) * 2048 + 1 * (y 0).val = t.val * 2048 + (y 0).val; rw [e0]; omega
  | ⟨1, _⟩ => show win0_0.index t (1 : Fin 2) * 256 + 1 * (y 1).val = (y 1).val; rw [e1]; omega

/-- The weight window's block at every point is the whole weight array. -/
theorem iblk0_1_eq (c : Dev nD) (t : Fin cfg0.N) : (iblk0 V c 1 t : Vec Ideal S256x128 .f32) = V c main_arg3 := by
  obtain ⟨-, -, e0, e1, -⟩ := idx0 t
  funext y
  unfold iblk0
  rw [View.read_apply]
  show (V c main_arg3 : S256x128.Idx → Ideal .f32) (((cfg0.win 1).blk t).view.emb y) = (V c main_arg3 : S256x128.Idx → Ideal .f32) y
  refine congrArg _ (funext fun a => Fin.ext ?_)
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- The bias window's block at every point is the whole bias row. -/
theorem iblk0_2_eq (c : Dev nD) (t : Fin cfg0.N) : (iblk0 V c 2 t : Vec Ideal S1x128 .f32) = V c main_v29 := by
  obtain ⟨-, -, -, -, e0, e1, -⟩ := idx0 t
  funext y
  unfold iblk0
  rw [View.read_apply]
  show (V c main_v29 : S1x128.Idx → Ideal .f32) (((cfg0.win 2).blk t).view.emb y) = (V c main_v29 : S1x128.Idx → Ideal .f32) y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## From the blocks to the array -/

/-- What point `t` writes back is block `t` of the layer applied to the arrays as the region finds them. -/
theorem flushed0_eq (c : Dev nD) (t : Fin cfg0.N) :
    (dat0 V c).flushed 3 t = ((cfg0.win 3).blk t).view.read (Elt Ideal) (Lin0 (V c main_v28) (V c main_arg3) (V c main_v29)) := by
  have ht : t.val * 2048 + 2048 ≤ 16384 := by have := Nat.lt_of_lt_of_eq t.isLt N_0; omega
  obtain ⟨-, -, -, -, -, -, e0, e1⟩ := idx0 t
  show (cfg0.win 3).cut (grid0.coords t) ((dat0 V c).after 3 t) = _
  rw [after0_3]
  unfold out0_3
  rw [View.canon_unit_zero hz0]
  simp only [View.ld_unit_zero (S := S2048x256) hz0, View.ld_unit_zero (S := S256x128) hz0, View.ld_unit_zero (S := S1x128) hz0]
  rw [block_law0 (V c main_v28) (V c main_arg3) (V c main_v29) t.val ht _ _ _ (iblk0_0_eq V c t ht) (iblk0_1_eq V c t) (iblk0_2_eq V c t)]
  funext y
  show (Lin0 (V c main_v28) (V c main_arg3) (V c main_v29)) (ix2 ⟨t.val * 2048 + (y 0).val, _⟩ (y 1 : Fin 128))
    = (Lin0 (V c main_v28) (V c main_arg3) (V c main_v29)) (((cfg0.win 3).blk t).view.emb y)
  refine congrArg _ (funext fun a => Fin.ext ?_)
  match a with
  | ⟨0, _⟩ => show t.val * 2048 + (y 0).val = win0_3.index t (0 : Fin 2) * 2048 + 1 * (y 0).val; rw [e0]; omega
  | ⟨1, _⟩ => show (y 1).val = win0_3.index t (1 : Fin 2) * 128 + 1 * (y 1).val; rw [e1]; omega

/-- An index of the output array is in point `t`'s block iff each coordinate is in the block's range on its axis. -/
theorem mem_blk0 (t : Fin cfg0.N) (i : S16384x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v30).slice (win0_3.rect t)).set ↔ _
  rw [View.set_slice_whole, Rect.mem_set_unit]
  exact Iff.rfl

/-- Every index of the output array is in some point's block: row `r` is in the block of point `r / 2048`. -/
theorem cover0 (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  obtain ⟨t, htv⟩ : ∃ t : Fin cfg0.N, t.val = (i 0).val / 2048 := ⟨⟨(i 0).val / 2048, by rw [show cfg0.N = 8 from N_0]; omega⟩, rfl⟩
  obtain ⟨-, -, -, -, -, -, e0, e1⟩ := idx0 t
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; rw [e0, htv]; omega
  | ⟨1, _⟩ => show win0_3.index t (1 : Fin 2) * 128 ≤ (i 1).val ∧ (i 1).val < win0_3.index t (1 : Fin 2) * 128 + 128; rw [e1]; omega

/-- After the region's last grid point its output array is the layer applied to the arrays the region was entered
    with: the layer's input, the weights and the bias row. -/
theorem final0 (V : (c : Dev nD) → (b : Ref sig .tc) → Buf (Elt Ideal) ((c : Thread nD τ).loc b)) (c : Dev nD) :
    (dat0 V c).arrAt 3 cfg0.N = Lin0 (V c main_v28) (V c main_arg3) (V c main_v29) :=
  (dat0 V c).arrAt_eq_of_cover 3 (Lin0 (V c main_v28) (V c main_arg3) (V c main_v29)) (fun t _ => flushed0_eq V c t) cover0

end Cert.KernelIdeal.Hand

end
-- ==== Proof.KI.Value1.lean ====
/-
  Layer 1 on the whole array. The pallas_call computes, row block by row block, `max(x · W + b, 0)`; the blocks tile
  the rows, so after the last grid point the output array is that function of the three whole input arrays. It is
  stated here in the host's own operations (a general dot product contracting the shared axis, the bias row broadcast
  down the rows, the maximum with zero), which is how the reference program spells the same layer.

  The proof: both the body's payload on a block and the host's spelling on whole arrays are the textbook product, the
  bias row added to every row, and the larger of that and zero; these three act row by row, so the payload of a block of
  rows is that block of rows of the whole result; the input's and the output's blocks at grid point `t` are rows
  `2048 t … 2048 t + 2047`, the weights' and the bias row's blocks are the whole arrays; the eight blocks cover the rows.
-/
import proofs.«137523_j23356032156257_1_alg».proof.Proof.KI.Region1
import proofs.«137523_j23356032156257_1_alg».proof.Proof.Gen.ReferenceIdeal
import proofs.«137523_j23356032156257_1_alg».proof.Proof.LibDense
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Dense

/-- One dense layer with its clamp at zero, on whole arrays, in the host's operations. -/
def Lin1 (x : FVec Ideal S16384x128 .f32) (w : FVec Ideal S128x128 .f32) (b : FVec Ideal S1x128 .f32) : FVec Ideal S16384x128 .f32 :=
  maximumf (addf (Host.dotGeneral Cert.ReferenceIdeal.dot_S16384x128_S128x128_S16384x128_1_0_0_1_n_n none x w)
      (broadcastInDim S16384x128 ![0, 1] Cert.ReferenceIdeal.Facts₀.bcast_S1x128_S16384x128_0_1 b))
    (broadcastInDim S16384x128 ![] Cert.ReferenceIdeal.Facts₀.bcast_S_S16384x128 (constant (F := Ideal) S_ .f32 0x00000000#32))

/-- The body's payload on a block: the block times the weights, the bias row added to every row, the larger of that
    and zero. -/
theorem pay1_eq (x : Vec Ideal S2048x128 .f32) (w : Vec Ideal S128x128 .f32) (b : Vec Ideal S1x128 .f32) :
    k1_pay1 x w b = biasRelu (Ideal.ofBits .f32 0x00000000#32) (mm x w) (fun q => b (ix2 (0 : Fin 1) q)) := by
  unfold k1_pay1
  dsimp only
  rw [shapeCast_self, shapeCast_self]
  show maximumf (addf (matmul (DotDims.plain 2048 128 128) none x w (constant ⟨2, ![2048, 128]⟩ .f32 0x00000000#32))
      (broadcastTo ⟨2, ![2048, 128]⟩ b broadcasts_S1x128_S2048x128)) (broadcast ⟨2, ![2048, 128]⟩ (Scalar.ofBits (F := Ideal) .f32 0x00000000#32)) = _
  rw [matmul_plain_zero_eq_mm, biasRelu_of_broadcast]

/-- The layer on whole arrays, spelled in the host's operations, is the same three steps. -/
theorem Lin1_eq (X : FVec Ideal S16384x128 .f32) (W : FVec Ideal S128x128 .f32) (B : FVec Ideal S1x128 .f32) :
    Lin1 X W B = biasRelu (Ideal.ofBits .f32 0x00000000#32) (mm X W) (fun q => B (ix2 (0 : Fin 1) q)) := by
  unfold Lin1
  have e : Host.dotGeneral Cert.ReferenceIdeal.dot_S16384x128_S128x128_S16384x128_1_0_0_1_n_n none X W = mm X W :=
    dotGeneral_plain_eq_mm (m := 16384) (k := 128) (n := 128) none X W
  rw [e]
  funext j
  show max (mm X W j + broadcastInDim S16384x128 ![0, 1] _ B j) (Ideal.ofBits .f32 0x00000000#32) = max (mm X W j + B (ix2 (0 : Fin 1) (j 1 : Fin 128))) _
  rw [broadcastInDim_apply ![0, 1] _ B j (ix2 (0 : Fin 1) (j 1 : Fin 128)) (fun a => by
    match a with
    | ⟨0, _⟩ => rfl
    | ⟨1, _⟩ => rfl)]

/-- The layer acts row by row: on the block of rows `2048 t … 2048 t + 2047` of the input, with the whole weights and
    bias row, the body's payload is that block of rows of the layer's result. -/
theorem block_law1 (X : FVec Ideal S16384x128 .f32) (W : FVec Ideal S128x128 .f32) (B : FVec Ideal S1x128 .f32)
    (t : Nat) (ht : t * 2048 + 2048 ≤ 16384)
    (x : Vec Ideal S2048x128 .f32) (w : Vec Ideal S128x128 .f32) (b : Vec Ideal S1x128 .f32)
    (hx : x = rowBlock 2048 t ht X) (hw : w = W) (hb : b = B) :
    k1_pay1 x w b = rowBlock 2048 t ht (Lin1 X W B) := by
  subst hx hw hb
  rw [pay1_eq, Lin1_eq, mm_rowBlock, biasRelu_rowBlock]

/-! ## The windows' blocks as parts of the arrays -/

theorem hz1 : (![0, 0] : Fin 2 → Nat) = fun _ => 0 := funext fun a => by fin_cases a <;> rfl

/-- The printed index maps, decided over the grid: the input's and the output's block index is the grid point on the
    rows and 0 on the columns; the weights' and the bias row's block index is 0 on both axes. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The input window's block at point `t` is rows `2048 t … 2048 t + 2047` of the input array. -/
theorem iblk1_0_eq (c : Dev nD) (t : Fin cfg1.N) (ht : t.val * 2048 + 2048 ≤ 16384) :
    (iblk1 V c 0 t : Vec Ideal S2048x128 .f32) = rowBlock 2048 t.val ht (V c main_v46) := by
  obtain ⟨e0, e1, -⟩ := idx1 t
  funext y
  unfold iblk1
  rw [View.read_apply]
  show (V c main_v46 : S16384x128.Idx → Ideal .f32) (((cfg1.win 0).blk t).view.emb y)
    = (V c main_v46 : S16384x128.Idx → Ideal .f32) (ix2 ⟨t.val * 2048 + (y 0).val, _⟩ (y 1 : Fin 128))
  refine congrArg _ (funext fun a => Fin.ext ?_)
  match a with
  | ⟨0, _⟩ => show win1_0.index t (0 : Fin 2) * 2048 + 1 * (y 0).val = t.val * 2048 + (y 0).val; rw [e0]; omega
  | ⟨1, _⟩ => show win1_0.index t (1 : Fin 2) * 128 + 1 * (y 1).val = (y 1).val; rw [e1]; omega

/-- The weight window's block at every point is the whole weight array. -/
theorem iblk1_1_eq (c : Dev nD) (t : Fin cfg1.N) : (iblk1 V c 1 t : Vec Ideal S128x128 .f32) = V c main_arg5 := by
  obtain ⟨-, -, e0, e1, -⟩ := idx1 t
  funext y
  unfold iblk1
  rw [View.read_apply]
  show (V c main_arg5 : S128x128.Idx → Ideal .f32) (((cfg1.win 1).blk t).view.emb y) = (V c main_arg5 : S128x128.Idx → Ideal .f32) y
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The bias window's block at every point is the whole bias row. -/
theorem iblk1_2_eq (c : Dev nD) (t : Fin cfg1.N) : (iblk1 V c 2 t : Vec Ideal S1x128 .f32) = V c main_v47 := by
  obtain ⟨-, -, -, -, e0, e1, -⟩ := idx1 t
  funext y
  unfold iblk1
  rw [View.read_apply]
  show (V c main_v47 : S1x128.Idx → Ideal .f32) (((cfg1.win 2).blk t).view.emb y) = (V c main_v47 : S1x128.Idx → Ideal .f32) y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-! ## From the blocks to the array -/

/-- What point `t` writes back is block `t` of the layer applied to the arrays as the region finds them. -/
theorem flushed1_eq (c : Dev nD) (t : Fin cfg1.N) :
    (dat1 V c).flushed 3 t = ((cfg1.win 3).blk t).view.read (Elt Ideal) (Lin1 (V c main_v46) (V c main_arg5) (V c main_v47)) := by
  have ht : t.val * 2048 + 2048 ≤ 16384 := by have := Nat.lt_of_lt_of_eq t.isLt N_1; omega
  obtain ⟨-, -, -, -, -, -, e0, e1⟩ := idx1 t
  show (cfg1.win 3).cut (grid1.coords t) ((dat1 V c).after 3 t) = _
  rw [after1_3]
  unfold out1_3
  rw [View.canon_unit_zero hz1]
  simp only [View.ld_unit_zero (S := S2048x128) hz1, View.ld_unit_zero (S := S128x128) hz1, View.ld_unit_zero (S := S1x128) hz1]
  rw [block_law1 (V c main_v46) (V c main_arg5) (V c main_v47) t.val ht _ _ _ (iblk1_0_eq V c t ht) (iblk1_1_eq V c t) (iblk1_2_eq V c t)]
  funext y
  show (Lin1 (V c main_v46) (V c main_arg5) (V c main_v47)) (ix2 ⟨t.val * 2048 + (y 0).val, _⟩ (y 1 : Fin 128))
    = (Lin1 (V c main_v46) (V c main_arg5) (V c main_v47)) (((cfg1.win 3).blk t).view.emb y)
  refine congrArg _ (funext fun a => Fin.ext ?_)
  match a with
  | ⟨0, _⟩ => show t.val * 2048 + (y 0).val = win1_3.index t (0 : Fin 2) * 2048 + 1 * (y 0).val; rw [e0]; omega
  | ⟨1, _⟩ => show (y 1).val = win1_3.index t (1 : Fin 2) * 128 + 1 * (y 1).val; rw [e1]; omega

/-- An index of the output array is in point `t`'s block iff each coordinate is in the block's range on its axis. -/
theorem mem_blk1 (t : Fin cfg1.N) (i : S16384x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v30).slice (win1_3.rect t)).set ↔ _
  rw [View.set_slice_whole, Rect.mem_set_unit]
  exact Iff.rfl

/-- Every index of the output array is in some point's block: row `r` is in the block of point `r / 2048`. -/
theorem cover1 (i : S16384x128.Idx) : ∃ t : Fin cfg1.N, (cfg1.win 3).flush t = true ∧ i ∈ ((cfg1.win 3).blk t).view.set := by
  have hi0 : (i 0).val < 16384 := (i 0).isLt
  have hi1 : (i 1).val < 128 := (i 1).isLt
  obtain ⟨t, htv⟩ : ∃ t : Fin cfg1.N, t.val = (i 0).val / 2048 := ⟨⟨(i 0).val / 2048, by rw [show cfg1.N = 8 from N_1]; omega⟩, rfl⟩
  obtain ⟨-, -, -, -, -, -, e0, e1⟩ := idx1 t
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; rw [e0, htv]; omega
  | ⟨1, _⟩ => show win1_3.index t (1 : Fin 2) * 128 ≤ (i 1).val ∧ (i 1).val < win1_3.index t (1 : Fin 2) * 128 + 128; rw [e1]; omega

/-- After the region's last grid point its output array is the layer applied to the arrays the region was entered
    with: the layer's input, the weights and the bias row. -/
theorem final1 (V : (c : Dev nD) → (b : Ref sig .tc) → Buf (Elt Ideal) ((c : Thread nD τ).loc b)) (c : Dev nD) :
    (dat1 V c).arrAt 3 cfg1.N = Lin1 (V c main_v46) (V c main_arg5) (V c main_v47) :=
  (dat1 V c).arrAt_eq_of_cover 3 (Lin1 (V c main_v46) (V c main_arg5) (V c main_v47)) (fun t _ => flushed1_eq V c t) cover1

end Cert.KernelIdeal.Hand

end
-- ==== Proof.KI.Value2.lean ====
/-
  Layer 3 on the whole array. The pallas_call computes, row block by row block, `x · W + b`; the blocks tile
  the rows, so after the last grid point the output array is that function of the three whole input arrays. It is
  stated here in the host's own operations (a general dot product contracting the shared axis, the bias row broadcast
  down the rows), which is how the reference program spells the same layer.

  The proof: both the body's payload on a block and the host's spelling on whole arrays are the textbook product with
  the bias row added to every row; these two act row by row, so the payload of a block of rows is that block of rows of
  the whole result; the input's and the output's blocks at grid point `t` are rows `2048 t … 2048 t + 2047`, the
  weights' and the bias row's blocks are the whole arrays; the eight blocks cover the rows.
-/
import proofs.«137523_j23356032156257_1_alg».proof.Proof.KI.Region2
import proofs.«137523_j23356032156257_1_alg».proof.Proof.Gen.ReferenceIdeal
import proofs.«137523_j23356032156257_1_alg».proof.Proof.LibDense
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Dense

/-- One dense layer without a clamp, on whole arrays, in the host's operations. -/
def Lin2 (x : FVec Ideal S16384x128 .f32) (w : FVec Ideal S128x64 .f32) (b : FVec Ideal S1x64 .f32) : FVec Ideal S16384x64 .f32 :=
  addf (Host.dotGeneral Cert.ReferenceIdeal.dot_S16384x128_S128x64_S16384x64_1_0_0_1_n_n none x w)
    (broadcastInDim S16384x64 ![0, 1] Cert.ReferenceIdeal.Facts₀.bcast_S1x64_S16384x64_0_1 b)

/-- A matrix with the entry `β c` added to every row at column `c`. -/
def biasAdd {m k : Nat} (A : Mat m k) (β : Fin k → Ideal .f32) : Mat m k := fun j => A j + β (j 1 : Fin k)

/-- Adding a row to every row acts row by row: on a block of rows it is that block of rows of the whole. -/
theorem biasAdd_rowBlock {M k : Nat} (R t : Nat) (h : t * R + R ≤ M) (A : Mat M k) (β : Fin k → Ideal .f32) :
    biasAdd (rowBlock R t h A) β = rowBlock R t h (biasAdd A β) := rfl

/-- The body's payload on a block: the block times the weights, the bias row added to every row. -/
theorem pay2_eq (x : Vec Ideal S2048x128 .f32) (w : Vec Ideal S128x64 .f32) (b : Vec Ideal S1x64 .f32) :
    k2_pay1 x w b = biasAdd (mm x w) (fun q => b (ix2 (0 : Fin 1) q)) := by
  unfold k2_pay1
  dsimp only
  rw [shapeCast_self, shapeCast_self]
  show addf (F := Ideal) (matmul (DotDims.plain 2048 128 64) none x w (constant ⟨2, ![2048, 64]⟩ .f32 0x00000000#32))
      (broadcastTo ⟨2, ![2048, 64]⟩ b broadcasts_S1x64_S2048x64) = _
  rw [matmul_plain_zero_eq_mm]
  funext j
  show mm x w j + broadcastTo ⟨2, ![2048, 64]⟩ b broadcasts_S1x64_S2048x64 j = mm x w j + b (ix2 (0 : Fin 1) (j 1 : Fin 64))
  rw [broadcastTo_oneRow_apply]

/-- The layer on whole arrays, spelled in the host's operations, is the same two steps. -/
theorem Lin2_eq (X : FVec Ideal S16384x128 .f32) (W : FVec Ideal S128x64 .f32) (B : FVec Ideal S1x64 .f32) :
    Lin2 X W B = biasAdd (mm X W) (fun q => B (ix2 (0 : Fin 1) q)) := by
  unfold Lin2
  have e : Host.dotGeneral Cert.ReferenceIdeal.dot_S16384x128_S128x64_S16384x64_1_0_0_1_n_n none X W = mm X W :=
    dotGeneral_plain_eq_mm (m := 16384) (k := 128) (n := 64) none X W
  rw [e]
  funext j
  show mm X W j + broadcastInDim S16384x64 ![0, 1] _ B j = mm X W j + B (ix2 (0 : Fin 1) (j 1 : Fin 64))
  rw [broadcastInDim_apply ![0, 1] _ B j (ix2 (0 : Fin 1) (j 1 : Fin 64)) (fun a => by
    match a with
    | ⟨0, _⟩ => rfl
    | ⟨1, _⟩ => rfl)]

/-- The layer acts row by row: on the block of rows `2048 t … 2048 t + 2047` of the input, with the whole weights and
    bias row, the body's payload is that block of rows of the layer's result. -/
theorem block_law2 (X : FVec Ideal S16384x128 .f32) (W : FVec Ideal S128x64 .f32) (B : FVec Ideal S1x64 .f32)
    (t : Nat) (ht : t * 2048 + 2048 ≤ 16384)
    (x : Vec Ideal S2048x128 .f32) (w : Vec Ideal S128x64 .f32) (b : Vec Ideal S1x64 .f32)
    (hx : x = rowBlock 2048 t ht X) (hw : w = W) (hb : b = B) :
    k2_pay1 x w b = rowBlock 2048 t ht (Lin2 X W B) := by
  subst hx hw hb
  rw [pay2_eq, Lin2_eq, mm_rowBlock, biasAdd_rowBlock]

/-! ## The windows' blocks as parts of the arrays -/

theorem hz2 : (![0, 0] : Fin 2 → Nat) = fun _ => 0 := funext fun a => by fin_cases a <;> rfl

/-- The printed index maps, decided over the grid: the input's and the output's block index is the grid point on the
    rows and 0 on the columns; the weights' and the bias row's block index is 0 on both axes. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The input window's block at point `t` is rows `2048 t … 2048 t + 2047` of the input array. -/
theorem iblk2_0_eq (c : Dev nD) (t : Fin cfg2.N) (ht : t.val * 2048 + 2048 ≤ 16384) :
    (iblk2 V c 0 t : Vec Ideal S2048x128 .f32) = rowBlock 2048 t.val ht (V c main_v64) := by
  obtain ⟨e0, e1, -⟩ := idx2 t
  funext y
  unfold iblk2
  rw [View.read_apply]
  show (V c main_v64 : S16384x128.Idx → Ideal .f32) (((cfg2.win 0).blk t).view.emb y)
    = (V c main_v64 : S16384x128.Idx → Ideal .f32) (ix2 ⟨t.val * 2048 + (y 0).val, _⟩ (y 1 : Fin 128))
  refine congrArg _ (funext fun a => Fin.ext ?_)
  match a with
  | ⟨0, _⟩ => show win2_0.index t (0 : Fin 2) * 2048 + 1 * (y 0).val = t.val * 2048 + (y 0).val; rw [e0]; omega
  | ⟨1, _⟩ => show win2_0.index t (1 : Fin 2) * 128 + 1 * (y 1).val = (y 1).val; rw [e1]; omega

/-- The weight window's block at every point is the whole weight array. -/
theorem iblk2_1_eq (c : Dev nD) (t : Fin cfg2.N) : (iblk2 V c 1 t : Vec Ideal S128x64 .f32) = V c main_arg7 := by
  obtain ⟨-, -, e0, e1, -⟩ := idx2 t
  funext y
  unfold iblk2
  rw [View.read_apply]
  show (V c main_arg7 : S128x64.Idx → Ideal .f32) (((cfg2.win 1).blk t).view.emb y) = (V c main_arg7 : S128x64.Idx → Ideal .f32) y
  refine congrArg _ (funext fun a => Fin.ext ?_)
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega

/-- The bias window's block at every point is the whole bias row. -/
theorem iblk2_2_eq (c : Dev nD) (t : Fin cfg2.N) : (iblk2 V c 2 t : Vec Ideal S1x64 .f32) = V c main_v65 := by
  obtain ⟨-, -, -, -, e0, e1, -⟩ := idx2 t
  funext y
  unfold iblk2
  rw [View.read_apply]
  show (V c main_v65 : S1x64.Idx → Ideal .f32) (((cfg2.win 2).blk t).view.emb y) = (V c main_v65 : S1x64.Idx → Ideal .f32) y
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-! ## From the blocks to the array -/

/-- What point `t` writes back is block `t` of the layer applied to the arrays as the region finds them. -/
theorem flushed2_eq (c : Dev nD) (t : Fin cfg2.N) :
    (dat2 V c).flushed 3 t = ((cfg2.win 3).blk t).view.read (Elt Ideal) (Lin2 (V c main_v64) (V c main_arg7) (V c main_v65)) := by
  have ht : t.val * 2048 + 2048 ≤ 16384 := by have := Nat.lt_of_lt_of_eq t.isLt N_2; omega
  obtain ⟨-, -, -, -, -, -, e0, e1⟩ := idx2 t
  show (cfg2.win 3).cut (grid2.coords t) ((dat2 V c).after 3 t) = _
  rw [after2_3]
  unfold out2_3
  rw [View.canon_unit_zero hz2]
  simp only [View.ld_unit_zero (S := S2048x128) hz2, View.ld_unit_zero (S := S128x64) hz2, View.ld_unit_zero (S := S1x64) hz2]
  rw [block_law2 (V c main_v64) (V c main_arg7) (V c main_v65) t.val ht _ _ _ (iblk2_0_eq V c t ht) (iblk2_1_eq V c t) (iblk2_2_eq V c t)]
  funext y
  show (Lin2 (V c main_v64) (V c main_arg7) (V c main_v65)) (ix2 ⟨t.val * 2048 + (y 0).val, _⟩ (y 1 : Fin 64))
    = (Lin2 (V c main_v64) (V c main_arg7) (V c main_v65)) (((cfg2.win 3).blk t).view.emb y)
  refine congrArg _ (funext fun a => Fin.ext ?_)
  match a with
  | ⟨0, _⟩ => show t.val * 2048 + (y 0).val = win2_3.index t (0 : Fin 2) * 2048 + 1 * (y 0).val; rw [e0]; omega
  | ⟨1, _⟩ => show (y 1).val = win2_3.index t (1 : Fin 2) * 64 + 1 * (y 1).val; rw [e1]; omega

/-- An index of the output array is in point `t`'s block iff each coordinate is in the block's range on its axis. -/
theorem mem_blk2 (t : Fin cfg2.N) (i : S16384x64.Idx) :
    i ∈ ((cfg2.win 3).blk t).view.set ↔ ∀ a : Fin 2, win2_3.index t a * S2048x64.size a ≤ (i a).val ∧ (i a).val < win2_3.index t a * S2048x64.size a + S2048x64.size a := by
  show i ∈ ((View.whole main_v66).slice (win2_3.rect t)).set ↔ _
  rw [View.set_slice_whole, Rect.mem_set_unit]
  exact Iff.rfl

/-- Every index of the output array is in some point's block: row `r` is in the block of point `r / 2048`. -/
theorem cover2 (i : S16384x64.Idx) : ∃ t : Fin cfg2.N, (cfg2.win 3).flush t = true ∧ i ∈ ((cfg2.win 3).blk t).view.set := by
  have hi0 : (i 0).val < 16384 := (i 0).isLt
  have hi1 : (i 1).val < 64 := (i 1).isLt
  obtain ⟨t, htv⟩ : ∃ t : Fin cfg2.N, t.val = (i 0).val / 2048 := ⟨⟨(i 0).val / 2048, by rw [show cfg2.N = 8 from N_2]; omega⟩, rfl⟩
  obtain ⟨-, -, -, -, -, -, e0, e1⟩ := idx2 t
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; rw [e0, htv]; omega
  | ⟨1, _⟩ => show win2_3.index t (1 : Fin 2) * 64 ≤ (i 1).val ∧ (i 1).val < win2_3.index t (1 : Fin 2) * 64 + 64; rw [e1]; omega

/-- After the region's last grid point its output array is the layer applied to the arrays the region was entered
    with: the layer's input, the weights and the bias row. -/
theorem final2 (V : (c : Dev nD) → (b : Ref sig .tc) → Buf (Elt Ideal) ((c : Thread nD τ).loc b)) (c : Dev nD) :
    (dat2 V c).arrAt 3 cfg2.N = Lin2 (V c main_v64) (V c main_arg7) (V c main_v65) :=
  (dat2 V c).arrAt_eq_of_cover 3 (Lin2 (V c main_v64) (V c main_arg7) (V c main_v65)) (fun t _ => flushed2_eq V c t) cover2

end Cert.KernelIdeal.Hand

end
-- ==== Proof.KI.Value3.lean ====
/-
  The decoder on the whole array. The pallas_call computes, tile by tile, the logistic function of `z_i · z_jᵀ` for a
  1024-row block `z_i` and a 1024-row block `z_j` of the embeddings; the 16 × 16 tiles cover the 16384 × 16384 output,
  so after the last grid point the output array is `1 / (1 + exp(-(z · zᵀ)))` of the whole embedding array, stated
  here in the host's own operations as the reference program spells it.
-/
import proofs.«137523_j23356032156257_1_alg».proof.Proof.KI.Region3
import proofs.«137523_j23356032156257_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

/-- The decoder on whole arrays, in the host's operations: the logistic function, spelt as a quotient, of the
    embeddings times their transpose. -/
def Dec (z : FVec Ideal S16384x64 .f32) : FVec Ideal S16384x16384 .f32 :=
  Host.divf (broadcastInDim S16384x16384 ![] Cert.ReferenceIdeal.Facts₀.bcast_S_S16384x16384 (constant (F := Ideal) S_ .f32 0x3F800000#32))
    (addf (broadcastInDim S16384x16384 ![] Cert.ReferenceIdeal.Facts₀.bcast_S_S16384x16384 (constant (F := Ideal) S_ .f32 0x3F800000#32))
      (Host.exp (Host.negf (Host.dotGeneral Cert.ReferenceIdeal.dot_S16384x64_S64x16384_S16384x16384_1_0_0_1_n_n none z
        (transpose Cert.ReferenceIdeal.S64x16384 [1, 0] z Cert.ReferenceIdeal.Facts₀.transposes_S16384x64_S64x16384_1_0)))))

/-! ## The two sides at an entry -/

/-- The float word `0x3F800000` is the number one. -/
theorem one_word3 : Ideal.ofBits .f32 0x3F800000#32 = 1 := by
  simp [Ideal.ofBits, Ideal.ieee, -EReal.coe_mul]; norm_num

/-- Entry `(r, s)` of the decoder: the logistic function of the inner product of rows `r` and `s` of the embeddings.
    The host's product of `z` with its transpose is the sum over the shared coordinate; the transpose read at `(k, s)`
    is `z` at `(s, k)`; the quotient `1 / (1 + exp(-x))` is the logistic function. -/
theorem Dec_apply (z : FVec Ideal S16384x64 .f32) (r s : Fin 16384) :
    Dec z (ix2 r s) = Ideal.logistic (∑ k : Fin 64, z (ix2 r k) * z (ix2 s k)) := by
  have hone : ∀ i : S16384x16384.Idx, broadcastInDim S16384x16384 ![] Cert.ReferenceIdeal.Facts₀.bcast_S_S16384x16384
      (constant (F := Ideal) S_ .f32 0x3F800000#32) i = 1 := fun i =>
    (broadcastInDim_apply _ Cert.ReferenceIdeal.Facts₀.bcast_S_S16384x16384 _ i (fun a => a.elim0) (fun a => a.elim0)).trans one_word3
  have hdot : Host.dotGeneral Cert.ReferenceIdeal.dot_S16384x64_S64x16384_S16384x16384_1_0_0_1_n_n none z
      (transpose Cert.ReferenceIdeal.S64x16384 [1, 0] z Cert.ReferenceIdeal.Facts₀.transposes_S16384x64_S64x16384_1_0) (ix2 r s)
      = ∑ k : Fin 64, z (ix2 r k) * z (ix2 s k) := by
    refine (StackMember.dotGeneral_plain_apply (m := 16384) (k := 64) (n := 16384) none z _ r s).trans ?_
    refine Finset.sum_congr rfl fun k _ => ?_
    exact congrArg (z (ix2 r k) * ·) (transpose_ix2_apply z _ k s)
  unfold Dec
  refine (congrArg₂ FloatOps.hostDivf (hone _) (congrArg₂ FloatOps.addf (hone _)
    (congrArg (fun u => FloatOps.hostUnary .exp (FloatOps.hostNegf u)) hdot))).trans ?_
  rfl

/-- Entry `(p, q)` of the body's payload: the logistic function of the inner product of row `p` of the first block and
    row `q` of the second. A format change is the identity on the extended reals, the product into zeros is the sum
    over the shared coordinate, and the transposed second block read at `(k, q)` is the block at `(q, k)`. -/
theorem pay3_apply (x0 x1 : Vec Ideal S1024x64 .f32) (p q : Fin 1024) :
    k3_pay1 x0 x1 (ix2 p q) = Ideal.logistic (∑ k : Fin 64, x0 (ix2 p k) * x1 (ix2 q k)) := by
  unfold k3_pay1
  dsimp only
  refine congrArg Ideal.logistic ?_
  refine (congrFun (matmul_zero_eq_dotGeneral dot_S1024x64_S64x1024_S1024x1024_1_0_0_1_n_n none _ _) (ix2 p q)).trans ?_
  refine (StackMember.dotGeneral_plain_apply (m := 1024) (k := 64) (n := 1024) none _ _ p q).trans ?_
  refine Finset.sum_congr rfl fun k _ => ?_
  refine congrArg₂ (· * ·) ?_ ?_
  · exact congrFun (shapeCast_self x0 _) (ix2 p k)
  · refine (transpose_ix2_apply _ _ k q).trans ?_
    exact congrFun (shapeCast_self x1 _) (ix2 q k)

/-! ## The index maps over the grid -/

theorem hz3 : (![0, 0] : Fin 2 → Nat) = fun _ => 0 := funext fun a => by fin_cases a <;> rfl

/-- The printed index maps, decided over the 256 grid points: point `t` is tile `(t / 16, t % 16)`; the first input
    window is at row block `t / 16`, the second at row block `t % 16`, both at column block `0`. -/
theorem idx_facts3 : ∀ t : Fin cfg3.N,
    win3_0.index t (0 : Fin 2) = t.val / 16 ∧ win3_0.index t (1 : Fin 2) = 0
    ∧ win3_1.index t (0 : Fin 2) = t.val % 16 ∧ win3_1.index t (1 : Fin 2) = 0
    ∧ win3_2.index t (0 : Fin 2) = t.val / 16 ∧ win3_2.index t (1 : Fin 2) = t.val % 16 :=
  (by decide +kernel : ∀ t : Fin grid3.N, _)

/-! ## One tile -/

/-- If the first block is rows `1024 a …` of `z` and the second is rows `1024 b …` of `z`, the payload's entry
    `(p, q)` is the decoder's entry `(1024 a + p, 1024 b + q)`: both are the logistic function of the same inner
    product of two rows of `z`. -/
theorem tile3_eq (z : FVec Ideal S16384x64 .f32) (x0 x1 : Vec Ideal S1024x64 .f32) (a b : ℕ) (ha : a ≤ 15) (hb : b ≤ 15)
    (h0 : ∀ (p : Fin 1024) (k : Fin 64), x0 (ix2 p k) = z (ix2 (⟨a * 1024 + p.val, by omega⟩ : Fin 16384) k))
    (h1 : ∀ (q : Fin 1024) (k : Fin 64), x1 (ix2 q k) = z (ix2 (⟨b * 1024 + q.val, by omega⟩ : Fin 16384) k))
    (p q : Fin 1024) :
    k3_pay1 x0 x1 (ix2 p q)
      = Dec z (ix2 (⟨a * 1024 + p.val, by omega⟩ : Fin 16384) (⟨b * 1024 + q.val, by omega⟩ : Fin 16384)) := by
  rw [pay3_apply, Dec_apply]
  refine congrArg Ideal.logistic (Finset.sum_congr rfl fun k _ => ?_)
  rw [h0, h1]

/-- WHAT POINT `t` WRITES BACK is tile `t` of the decoder of the embedding array as the region finds it. -/
theorem flushed3_eq (V : (c : Dev nD) → (b : Ref sig .tc) → Buf (Elt Ideal) ((c : Thread nD τ).loc b)) (c : Dev nD)
    (t : Fin cfg3.N) :
    (dat3 V c).flushed 2 t = ((cfg3.win 2).blk t).view.read (Elt Ideal) (Dec (V c main_v66)) := by
  show (cfg3.win 2).cut (grid3.coords t) ((dat3 V c).after 2 t) = _
  rw [after3_2]
  unfold out3_2
  rw [View.canon_unit_zero hz3]
  simp only [View.ld_unit_zero (S := S1024x64) hz3]
  funext j
  obtain ⟨e00, e01, e10, e11, e20, e21⟩ := idx_facts3 t
  have ht : t.val < 256 := t.isLt
  have hj0 : (j 0).val < 1024 := (j 0).isLt
  have hj1 : (j 1).val < 1024 := (j 1).isLt
  have ej : (win3 2).xinj (grid3.coords t) j = ix2 (⟨(j 0).val, hj0⟩ : Fin 1024) (⟨(j 1).val, hj1⟩ : Fin 1024) :=
    funext fun a => match a with | ⟨0, _⟩ => rfl | ⟨1, _⟩ => rfl
  show k3_pay1 (iblk3 V c 0 t) (iblk3 V c 1 t) ((win3 2).xinj (grid3.coords t) j)
    = Dec (V c main_v66) (((cfg3.win 2).blk t).view.emb j)
  rw [ej]
  refine (tile3_eq (V c main_v66) (iblk3 V c 0 t) (iblk3 V c 1 t) (t.val / 16) (t.val % 16) (by omega) (by omega) ?_ ?_
    ⟨(j 0).val, hj0⟩ ⟨(j 1).val, hj1⟩).trans ?_
  · -- the first block is rows 1024 (t / 16) … of the embeddings
    intro p k
    show V c main_v66 (((cfg3.win 0).blk t).view.emb (ix2 p k)) = _
    refine congrArg (V c main_v66) (funext fun a => Fin.ext ?_)
    match a with
    | ⟨0, _⟩ => show win3_0.index t (0 : Fin 2) * 1024 + 1 * p.val = t.val / 16 * 1024 + p.val; omega
    | ⟨1, _⟩ => show win3_0.index t (1 : Fin 2) * 64 + 1 * k.val = k.val; omega
  · -- the second block is rows 1024 (t % 16) … of the embeddings
    intro q k
    show V c main_v66 (((cfg3.win 1).blk t).view.emb (ix2 q k)) = _
    refine congrArg (V c main_v66) (funext fun a => Fin.ext ?_)
    match a with
    | ⟨0, _⟩ => show win3_1.index t (0 : Fin 2) * 1024 + 1 * q.val = t.val % 16 * 1024 + q.val; omega
    | ⟨1, _⟩ => show win3_1.index t (1 : Fin 2) * 64 + 1 * k.val = k.val; omega
  · -- the output tile's entry (j 0, j 1) is the array's entry (1024 (t / 16) + j 0, 1024 (t % 16) + j 1)
    refine congrArg (Dec (V c main_v66)) (funext fun a => Fin.ext ?_)
    match a with
    | ⟨0, _⟩ => show t.val / 16 * 1024 + (j 0).val = win3_2.index t (0 : Fin 2) * 1024 + 1 * (j 0).val; omega
    | ⟨1, _⟩ => show t.val % 16 * 1024 + (j 1).val = win3_2.index t (1 : Fin 2) * 1024 + 1 * (j 1).val; omega

/-! ## The tiles cover the array -/

/-- An entry of the array is in point `t`'s tile iff each coordinate is in the tile's range on its axis. -/
theorem mem_blk3 (t : Fin cfg3.N) (i : S16384x16384.Idx) :
    i ∈ ((cfg3.win 2).blk t).view.set ↔ ∀ a : Fin 2, win3_2.index t a * S1024x1024.size a ≤ (i a).val
      ∧ (i a).val < win3_2.index t a * S1024x1024.size a + S1024x1024.size a := by
  show i ∈ ((View.whole main_v67).slice (win3_2.rect t)).set ↔ _
  rw [View.set_slice_whole, Rect.mem_set_unit]
  exact Iff.rfl

/-- Entry `(r, s)` of the array lies in the tile of the point `16 (r / 1024) + s / 1024`, and every point writes
    its tile back. -/
theorem cover3 (i : S16384x16384.Idx) :
    ∃ t : Fin cfg3.N, (cfg3.win 2).flush t = true ∧ i ∈ ((cfg3.win 2).blk t).view.set := by
  have hi0 : (i 0).val < 16384 := (i 0).isLt
  have hi1 : (i 1).val < 16384 := (i 1).isLt
  have hlt : 16 * ((i 0).val / 1024) + (i 1).val / 1024 < 256 := by omega
  obtain ⟨t, tv⟩ : ∃ t : Fin cfg3.N, t.val = 16 * ((i 0).val / 1024) + (i 1).val / 1024 := ⟨⟨_, hlt⟩, rfl⟩
  refine ⟨t, flush3_2 t, ?_⟩
  rw [mem_blk3]
  obtain ⟨-, -, -, -, e20, e21⟩ := idx_facts3 t
  intro a
  match a with
  | ⟨0, _⟩ =>
    show win3_2.index t (0 : Fin 2) * 1024 ≤ (i 0).val ∧ (i 0).val < win3_2.index t (0 : Fin 2) * 1024 + 1024
    omega
  | ⟨1, _⟩ =>
    show win3_2.index t (1 : Fin 2) * 1024 ≤ (i 1).val ∧ (i 1).val < win3_2.index t (1 : Fin 2) * 1024 + 1024
    omega

/-- After the region's last grid point its output array is the decoder applied to the embedding array the region
    was entered with (both input windows read that one array). -/
theorem final3 (V : (c : Dev nD) → (b : Ref sig .tc) → Buf (Elt Ideal) ((c : Thread nD τ).loc b)) (c : Dev nD) :
    (dat3 V c).arrAt 2 cfg3.N = Dec (V c main_v66) :=
  (dat3 V c).arrAt_eq_of_cover 2 (Dec (V c main_v66)) (fun t _ => flushed3_eq V c t) cover3

end Cert.KernelIdeal.Hand

end
-- ==== Proof.KI.Bridge.lean ====
/-
  The kernel program's two results at the return are the reference program's two results.
  Through the boundary contents of `Vals.lean`: the embeddings `z` are what the third dense layer leaves, the
  adjacency reconstruction is what the decoder leaves; each region's output array is its whole-array function of
  its entry arrays (`final0` … `final3`), each host stretch between them applies the same degree normalisation,
  gather and scatter-add that the reference applies, and the reference's own term is those same operations with each
  layer spelt as a dot product, a bias broadcast and a maximum. From memories agreeing on the nine arguments the two
  terms are equal.
-/
import proofs.«137523_j23356032156257_1_alg».proof.Proof.KI.Vals
import proofs.«137523_j23356032156257_1_alg».proof.Proof.KI.Value0
import proofs.«137523_j23356032156257_1_alg».proof.Proof.KI.Value1
import proofs.«137523_j23356032156257_1_alg».proof.Proof.KI.Value2
import proofs.«137523_j23356032156257_1_alg».proof.Proof.KI.Value3
import proofs.«137523_j23356032156257_1_alg».proof.Proof.Gen.ReferenceIdeal.Run
import Idealize.ShloMosaic.Lib.StableHlo.Run

set_option maxRecDepth 16384

noncomputable section

/-! ## The graph aggregation, named once

Every layer is entered through the same host operations: scale the rows by the source-degree normalisation, gather the
rows at the edge sources (negative indices wrapped), add them up at the edge destinations, scale by the
destination-degree normalisation. Both programs apply them; they are named here over their five operands so that the
two sides are compared operand by operand and the gather and the scatter-add are never opened. -/

namespace Cert.ReferenceIdeal.Hand

open Cert.ReferenceIdeal Cert.ReferenceIdeal.Facts₀
open Idealize.ShloMosaic

/-- A degree normalisation: one over the square root of the number of edges at each node, the count clamped at one. -/
def Nrm (idx : IVec S524288 32) : FVec Ideal S16384 .f32 :=
  Host.rsqrt (maximumf (Host.scatterAdd scatter_S16384_S524288x1_S524288_n_0_0_1 (broadcastInDim S16384 ![] bcast_S_S16384 (constant (F := Ideal) S_ .f32 0x00000000#32)) (broadcastInDim S524288x1 ![0] bcast_S524288_S524288x1_0 idx) (broadcastInDim S524288 ![] bcast_S_S524288 (constant (F := Ideal) S_ .f32 0x3F800000#32))) (broadcastInDim S16384 ![] bcast_S_S16384 (constant (F := Ideal) S_ .f32 0x3F800000#32)))

/-- The edge sources as gather indices: a negative index counts from the end. -/
def Wrap (src : IVec S524288 32) : IVec S524288x1 32 :=
  broadcastInDim S524288x1 ![0] bcast_S524288_S524288x1_0 (select (cmpi .slt src (broadcastInDim S524288 ![] bcast_S_S524288 (constantI S_ 32 0#32))) (addi src (broadcastInDim S524288 ![] bcast_S_S524288 (constantI S_ 32 16384#32))) src)

/-- The aggregation at 256 features. -/
def Agg256 (h : FVec Ideal S16384x256 .f32) (src dst : IVec S524288 32) (no ni : FVec Ideal S16384 .f32) : FVec Ideal S16384x256 .f32 :=
  mulf (Host.scatterAdd scatter_S16384x256_S524288x1_S524288x256_1_0_0_1 (broadcastInDim S16384x256 ![] bcast_S_S16384x256 (constant (F := Ideal) S_ .f32 0x00000000#32)) (broadcastInDim S524288x1 ![0] bcast_S524288_S524288x1_0 dst) (Host.gather gather_S16384x256_S524288x1_S524288x256_1_0_n_n_0_1_1256 (mulf h (broadcastInDim S16384x256 ![0, 1] bcast_S16384x1_S16384x256_0_1 (broadcastInDim S16384x1 ![0] bcast_S16384_S16384x1_0 no))) (Wrap src))) (broadcastInDim S16384x256 ![0, 1] bcast_S16384x1_S16384x256_0_1 (broadcastInDim S16384x1 ![0] bcast_S16384_S16384x1_0 ni))

/-- The aggregation at 128 features. -/
def Agg128 (h : FVec Ideal S16384x128 .f32) (src dst : IVec S524288 32) (no ni : FVec Ideal S16384 .f32) : FVec Ideal S16384x128 .f32 :=
  mulf (Host.scatterAdd scatter_S16384x128_S524288x1_S524288x128_1_0_0_1 (broadcastInDim S16384x128 ![] bcast_S_S16384x128 (constant (F := Ideal) S_ .f32 0x00000000#32)) (broadcastInDim S524288x1 ![0] bcast_S524288_S524288x1_0 dst) (Host.gather gather_S16384x128_S524288x1_S524288x128_1_0_n_n_0_1_1128 (mulf h (broadcastInDim S16384x128 ![0, 1] bcast_S16384x1_S16384x128_0_1 (broadcastInDim S16384x1 ![0] bcast_S16384_S16384x1_0 no))) (Wrap src))) (broadcastInDim S16384x128 ![0, 1] bcast_S16384x1_S16384x128_0_1 (broadcastInDim S16384x1 ![0] bcast_S16384_S16384x1_0 ni))

/-- A bias vector as a one-row matrix, as the reference program makes it. -/
def Row128 (b : FVec Ideal S128 .f32) : FVec Ideal S1x128 .f32 := broadcastInDim S1x128 ![1] bcast_S128_S1x128_1 b
def Row64 (b : FVec Ideal S64 .f32) : FVec Ideal S1x64 .f32 := broadcastInDim S1x64 ![1] bcast_S64_S1x64_1 b

end Cert.ReferenceIdeal.Hand

namespace Cert.KernelIdeal.Hand

open Cert.KernelIdeal Cert.KernelIdeal.Gen
open Idealize.ShloMosaic Idealize.ShloMosaic.TcCoe
open Idealize.SL Idealize.SL.Sem
open Idealize.ShloMosaic.ValueIdx
open Cert.ReferenceIdeal.Hand (Nrm Wrap Agg256 Agg128 Row128 Row64)

/-- The two memories agree on the nine arguments (the claim's hypothesis, as Defs.lean states it). -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-! ## The forward pass as one function of the nine arguments -/

/-- Layer 1: aggregate the features, then the dense layer with its clamp. -/
def Layer1 (x : FVec Ideal S16384x256 .f32) (src dst : IVec S524288 32) (w : FVec Ideal S256x128 .f32) (b : FVec Ideal S128 .f32) :
    FVec Ideal S16384x128 .f32 :=
  Lin0 (Agg256 x src dst (Nrm src) (Nrm dst)) w (Row128 b)

/-- Layer 2: the same on layer 1's output. -/
def Layer2 (h : FVec Ideal S16384x128 .f32) (src dst : IVec S524288 32) (w : FVec Ideal S128x128 .f32) (b : FVec Ideal S128 .f32) :
    FVec Ideal S16384x128 .f32 :=
  Lin1 (Agg128 h src dst (Nrm src) (Nrm dst)) w (Row128 b)

/-- Layer 3: aggregate layer 2's output, then the dense layer without a clamp. -/
def Layer3 (h : FVec Ideal S16384x128 .f32) (src dst : IVec S524288 32) (w : FVec Ideal S128x64 .f32) (b : FVec Ideal S64 .f32) :
    FVec Ideal S16384x64 .f32 :=
  Lin2 (Agg128 h src dst (Nrm src) (Nrm dst)) w (Row64 b)

/-- The embeddings. -/
def Emb (x : FVec Ideal S16384x256 .f32) (src dst : IVec S524288 32) (w1 : FVec Ideal S256x128 .f32) (b1 : FVec Ideal S128 .f32)
    (w2 : FVec Ideal S128x128 .f32) (b2 : FVec Ideal S128 .f32) (w3 : FVec Ideal S128x64 .f32) (b3 : FVec Ideal S64 .f32) :
    FVec Ideal S16384x64 .f32 :=
  Layer3 (Layer2 (Layer1 x src dst w1 b1) src dst w2 b2) src dst w3 b3

/-! ## The reference's two results in these names -/

/-- The reference's embeddings: its composed term is the three layers written out. -/
theorem ref_out1 (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v74 (F := Ideal) m' c = Emb (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold Cert.ReferenceIdeal.Value.res_main_v74
  rfl

/-- The reference's reconstruction is the decoder of its embeddings. -/
theorem ref_out0 (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v82 (F := Ideal) m' c = Dec (Cert.ReferenceIdeal.Value.res_main_v74 (F := Ideal) m' c) := by
  unfold Cert.ReferenceIdeal.Value.res_main_v82 Cert.ReferenceIdeal.Value.res_main_v74 Dec
  rfl

/-! ## A vector as a one-row matrix, two spellings -/

/-- Reshaping `n` entries to one row of `n` reads entry `j` at column `j`; so does broadcasting them along axis 1. -/
theorem shapeCast_row_eq {α : Type} {n : Nat} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext j
  have hj0 : (j 0).val = 0 := by
    have e : (j 0).val < 1 := (j 0).isLt
    omega
  have e1 := shapeCast_apply x h j (ix1 (j 1 : Fin n)) (by
    rw [Shape.rowMajor_val_two, Shape.rowMajor_val_one]
    show (j 1).val = (j 0).val * n + (j 1).val
    rw [hj0]; omega)
  have e2 := broadcastInDim_apply ![1] hd x j (ix1 (j 1 : Fin n)) (by
    intro a
    match a with
    | ⟨0, _⟩ =>
      show (j 1).val = if n = 1 then 0 else (j 1).val
      split
      · have e : (j 1).val < n := (j 1).isLt
        omega
      · rfl)
  exact e1.trans e2.symm

/-! ## The host stretches read back, from any contents -/

set_option maxHeartbeats 8000000 in
theorem host0_v9 (Wv : Valuation τ sig (Elt Ideal)) :
    StableHlo.after hostOps0 Wv (Proc.devRef .tc main_v9) = Nrm (Wv main_arg1) := by
  after_results_simp
  rfl

set_option maxHeartbeats 8000000 in
theorem host0_v12 (Wv : Valuation τ sig (Elt Ideal)) :
    StableHlo.after hostOps0 Wv (Proc.devRef .tc main_v12) = Nrm (Wv main_arg2) := by
  after_results_simp
  rfl

set_option maxHeartbeats 8000000 in
theorem host0_v28 (Wv : Valuation τ sig (Elt Ideal)) :
    StableHlo.after hostOps0 Wv (Proc.devRef .tc main_v28)
      = Agg256 (Wv main_arg0) (Wv main_arg1) (Wv main_arg2) (Nrm (Wv main_arg1)) (Nrm (Wv main_arg2)) := by
  after_results_simp
  rfl

set_option maxHeartbeats 8000000 in
theorem host0_v29 (Wv : Valuation τ sig (Elt Ideal)) :
    StableHlo.after hostOps0 Wv (Proc.devRef .tc main_v29) = Row128 (Wv main_arg4) := by
  after_results_simp
  exact shapeCast_row_eq _ _ _

set_option maxHeartbeats 8000000 in
theorem host1_v46 (Wv : Valuation τ sig (Elt Ideal)) :
    StableHlo.after hostOps1 Wv (Proc.devRef .tc main_v46)
      = Agg128 (Wv main_v30) (Wv main_arg1) (Wv main_arg2) (Wv main_v9) (Wv main_v12) := by
  after_results_simp
  rfl

set_option maxHeartbeats 8000000 in
theorem host1_v47 (Wv : Valuation τ sig (Elt Ideal)) :
    StableHlo.after hostOps1 Wv (Proc.devRef .tc main_v47) = Row128 (Wv main_arg6) := by
  after_results_simp
  exact shapeCast_row_eq _ _ _

set_option maxHeartbeats 8000000 in
theorem host2_v64 (Wv : Valuation τ sig (Elt Ideal)) :
    StableHlo.after hostOps2 Wv (Proc.devRef .tc main_v64)
      = Agg128 (Wv main_v48) (Wv main_arg1) (Wv main_arg2) (Wv main_v9) (Wv main_v12) := by
  after_results_simp
  rfl

set_option maxHeartbeats 8000000 in
theorem host2_v65 (Wv : Valuation τ sig (Elt Ideal)) :
    StableHlo.after hostOps2 Wv (Proc.devRef .tc main_v65) = Row64 (Wv main_arg8) := by
  after_results_simp
  exact shapeCast_row_eq _ _ _

/-! ## The boundary contents, from the launch memory on

Each layer's input is the aggregation of what the item before left, its weights are as launched (no item writes them),
its bias row is the launched bias as one row; the two normalisations are written once, by the first stretch, and no
later item writes them, nor the two edge lists. -/

section Chain

variable (m : (ℓ : Loc Cert.KernelIdeal.nD Cert.KernelIdeal.τ Cert.KernelIdeal.sig) → Buf (Elt Ideal) ℓ) (c : Dev nD)

/-- What the first stretch leaves that later items read. -/
theorem W1_v9 : W1 m c main_v9 = Nrm (m ((c.tc : Thread nD τ).loc main_arg1)) := host0_v9 (W0 m c)
theorem W1_v12 : W1 m c main_v12 = Nrm (m ((c.tc : Thread nD τ).loc main_arg2)) := host0_v12 (W0 m c)
theorem W1_v28 : W1 m c main_v28 = Agg256 (m ((c.tc : Thread nD τ).loc main_arg0)) (m ((c.tc : Thread nD τ).loc main_arg1)) (m ((c.tc : Thread nD τ).loc main_arg2)) (Nrm (m ((c.tc : Thread nD τ).loc main_arg1))) (Nrm (m ((c.tc : Thread nD τ).loc main_arg2))) := host0_v28 (W0 m c)
theorem W1_v29 : W1 m c main_v29 = Row128 (m ((c.tc : Thread nD τ).loc main_arg4)) := host0_v29 (W0 m c)

/-- A buffer that neither the first stretch nor layer 1 writes is as launched at layer 1's exit. -/
theorem W2_kept (r : Ref sig .tc) (h0 : r ∉ hostOps0_W) (h30 : r ≠ main_v30) : W2 m c r = m ((c.tc : Thread nD τ).loc r) :=
  (W2_of_ne m c r h30).trans (W1_of m c r h0)

/-- A buffer that the second stretch, layer 1 and layer 2 do not write holds at layer 2's exit what the first stretch left. -/
theorem W4_w1 (r : Ref sig .tc) (h1 : r ∉ hostOps1_W) (h30 : r ≠ main_v30) (h48 : r ≠ main_v48) : W4 m c r = W1 m c r :=
  (W4_of_ne m c r h48).trans ((W3_of m c r h1).trans (W2_of_ne m c r h30))

theorem W4_kept (r : Ref sig .tc) (h0 : r ∉ hostOps0_W) (h1 : r ∉ hostOps1_W) (h30 : r ≠ main_v30) (h48 : r ≠ main_v48) :
    W4 m c r = m ((c.tc : Thread nD τ).loc r) :=
  (W4_w1 m c r h1 h30 h48).trans (W1_of m c r h0)

/-- Layer 1's output. -/
theorem W2_v30 : W2 m c main_v30 = Layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_out m c).trans ((final0 (V1 m) c).trans ?_)
  show Lin0 (W1 m c main_v28) (W1 m c main_arg3) (W1 m c main_v29) = _
  rw [W1_v28, W1_v29, W1_of m c main_arg3 (by decide)]
  rfl

/-- Layer 2's input and bias row. -/
theorem W3_v46 : W3 m c main_v46 = Agg128 (Layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (Nrm (m ((c.tc : Thread nD τ).loc main_arg1))) (Nrm (m ((c.tc : Thread nD τ).loc main_arg2))) := by
  refine (host1_v46 (W2 m c)).trans ?_
  rw [W2_v30, W2_kept m c main_arg1 (by decide) (by decide), W2_kept m c main_arg2 (by decide) (by decide),
    W2_of_ne m c main_v9 (by decide), W2_of_ne m c main_v12 (by decide), W1_v9, W1_v12]

theorem W3_v47 : W3 m c main_v47 = Row128 (m ((c.tc : Thread nD τ).loc main_arg6)) := by
  refine (host1_v47 (W2 m c)).trans ?_
  rw [W2_kept m c main_arg6 (by decide) (by decide)]

/-- Layer 2's output. -/
theorem W4_v48 : W4 m c main_v48 = Layer2 (Layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6)) := by
  refine (W4_out m c).trans ((final1 (V3 m) c).trans ?_)
  show Lin1 (W3 m c main_v46) (W3 m c main_arg5) (W3 m c main_v47) = _
  rw [W3_v46, W3_v47, W3_of m c main_arg5 (by decide), W2_kept m c main_arg5 (by decide) (by decide)]
  rfl

/-- Layer 3's input and bias row. -/
theorem W5_v64 : W5 m c main_v64 = Agg128 (Layer2 (Layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg1)) (m ((c.tc : Thread nD τ).loc main_arg2)) (Nrm (m ((c.tc : Thread nD τ).loc main_arg1))) (Nrm (m ((c.tc : Thread nD τ).loc main_arg2))) := by
  refine (host2_v64 (W4 m c)).trans ?_
  rw [W4_v48, W4_kept m c main_arg1 (by decide) (by decide) (by decide) (by decide),
    W4_kept m c main_arg2 (by decide) (by decide) (by decide) (by decide),
    W4_w1 m c main_v9 (by decide) (by decide) (by decide), W4_w1 m c main_v12 (by decide) (by decide) (by decide), W1_v9, W1_v12]

theorem W5_v65 : W5 m c main_v65 = Row64 (m ((c.tc : Thread nD τ).loc main_arg8)) := by
  refine (host2_v65 (W4 m c)).trans ?_
  rw [W4_kept m c main_arg8 (by decide) (by decide) (by decide) (by decide)]

/-- Layer 3's output, the embeddings, as the return finds them. -/
theorem W7_v66 : W7 m c main_v66 = Emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W7_of_ne m c main_v66 (by decide)).trans ((W6_out m c).trans ((final2 (V5 m) c).trans ?_))
  show Lin2 (W5 m c main_v64) (W5 m c main_arg7) (W5 m c main_v65) = _
  rw [W5_v64, W5_v65, W5_of m c main_arg7 (by decide), W4_kept m c main_arg7 (by decide) (by decide) (by decide) (by decide)]
  rfl

end Chain

/-! ## The two results -/

/-- The embeddings: what the kernel program leaves in `main_v66` is the reference's second result. -/
theorem out1_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Agree m m') (c : Dev Cert.KernelIdeal.nD) :
    W7 m c main_v66 = Cert.ReferenceIdeal.Value.res_out1 (F := Ideal) m' c := by
  obtain ⟨h0, h1, h2, h3, h4, h5, h6, h7, h8⟩ := h c
  refine (W7_v66 m c).trans (Eq.symm ?_)
  show Cert.ReferenceIdeal.Value.res_main_v74 (F := Ideal) m' c = _
  rw [ref_out1 m' c, h0, h1, h2, h3, h4, h5, h6, h7, h8]

/-- The reconstruction: what the kernel program leaves in `main_v67` is the reference's first result. -/
theorem out0_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Agree m m') (c : Dev Cert.KernelIdeal.nD) :
    W7 m c main_v67 = Cert.ReferenceIdeal.Value.res_out0 (F := Ideal) m' c := by
  refine (W7_out m c).trans ((final3 (V6 m) c).trans ?_)
  show Dec (W6 m c main_v66) = _
  rw [← W7_of_ne m c main_v66 (by decide), out1_eq m m' h c]
  exact (ref_out0 m' c).symm

end Cert.KernelIdeal.Hand

end
-- ==== Proof.lean ====
/-
  The certificate of a three-layer graph convolution encoder with an inner-product decoder.

  Both programs compute, on a graph given by edge lists `src`, `dst`: the symmetric degree normalisations
  `rsqrt(max(deg, 1))`; three times over, `h ↦ (scatter-add over dst of the rows of (h · norm_out) gathered at src) · norm_in`
  followed by a dense layer `x ↦ x · W + b` (clamped below at zero in the first two layers), giving the embeddings `z`;
  and the reconstruction `1 / (1 + exp(-(z · zᵀ)))`. The kernel program runs the three dense layers and the decoder as four
  pallas_calls, tiled over row blocks (and over 1024 × 1024 tiles for the decoder), rounding the matrix products' inputs to
  a narrower float format; the gather, scatter-add and normalisation stay host operations, the same ones the reference
  applies. At the ideal instance a change of float format is the identity and a matrix product into a zero accumulator
  is the textbook sum, so each pallas_call's output array is the host's dot product plus bias (and clamp), the decoder's
  the logistic function of `z · zᵀ` in the host's spelling, and the two programs' results are the same terms of the arguments.

  The frames: @main of the kernel program is three host stretches and four kernel regions; no item writes an argument
  array, every region's body obligation holds at every grid point, and the decoder's two windows on the one embedding array
  hold it at two half shares. The reference is a straight-line host program. The ideal pass rewrote nothing, so the
  idealized kernel program is the kernel program's own text read at the ideal instance.
-/
import proofs.«137523_j23356032156257_1_alg».proof.Defs
import proofs.«137523_j23356032156257_1_alg».proof.Proof.Gen.Kernel
import proofs.«137523_j23356032156257_1_alg».proof.Proof.Gen.KernelIdeal
import proofs.«137523_j23356032156257_1_alg».proof.Proof.Gen.ReferenceIdeal
import proofs.«137523_j23356032156257_1_alg».proof.Proof.Gen.ReferenceIdeal.Run
import proofs.«137523_j23356032156257_1_alg».proof.Proof.Gen.Pre_finite_inputs
import proofs.«137523_j23356032156257_1_alg».proof.Proof.K.Frame
import proofs.«137523_j23356032156257_1_alg».proof.Proof.KI.Frame
import proofs.«137523_j23356032156257_1_alg».proof.Proof.KI.Bridge
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference, a straight-line host program: its run with the two results dropped. -/
theorem frame_r : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the nine arguments both idealized programs run, and both results agree: the kernel
    program's two result buffers end at the last boundary's contents, which are the reference's two result terms. -/
theorem algebraic : Cert.algebraic_KernelIdeal_ReferenceIdeal := by
  intro m ρ m' ρ' _ hagree
  refine ⟨fun c => Cert.KernelIdeal.Hand.W7 m c Cert.KernelIdeal.main_v67, fun c => Cert.KernelIdeal.Hand.W7 m c Cert.KernelIdeal.main_v66,
    Cert.KernelIdeal.Hand.run_values (F := Ideal) m ρ, ?_⟩
  have hag : Cert.KernelIdeal.Hand.Agree m m' := hagree
  exact (θ_run Cert.ReferenceIdeal.defs _ _).mono (fun _ h c =>
      ⟨(h c).1.trans (Cert.KernelIdeal.Hand.out0_eq m m' hag c).symm, (h c).2.1.trans (Cert.KernelIdeal.Hand.out1_eq m m' hag c).symm, (h c).2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
